-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512x768 : Shape := ⟨3, ![32, 512, 768]⟩
abbrev S1536x768 : Shape := ⟨2, ![1536, 768]⟩
abbrev S768 : Shape := ⟨1, ![768]⟩
abbrev S768x1 : Shape := ⟨2, ![768, 1]⟩
abbrev S1 : Shape := ⟨1, ![1]⟩
abbrev S32x1024x2 : Shape := ⟨3, ![32, 1024, 2]⟩
abbrev S_ : Shape := ⟨0, ![]⟩

class Facts : Prop where
  bcast_S_S32x512x768 : S_.BroadcastsInDim S32x512x768 (![] : Fin 0 → Fin S32x512x768.rank)
  reducesTo_S32x512x768_S_d0_1_2 : S32x512x768.ReducesTo [0, 1, 2] S_
  h_S_ : 0 < S_.numel
  bcast_S_S1536x768 : S_.BroadcastsInDim S1536x768 (![] : Fin 0 → Fin S1536x768.rank)
  reducesTo_S1536x768_S_d0_1 : S1536x768.ReducesTo [0, 1] S_
  bcast_S_S768 : S_.BroadcastsInDim S768 (![] : Fin 0 → Fin S768.rank)
  reducesTo_S768_S_d0 : S768.ReducesTo [0] S_
  bcast_S_S768x1 : S_.BroadcastsInDim S768x1 (![] : Fin 0 → Fin S768x1.rank)
  reducesTo_S768x1_S_d0_1 : S768x1.ReducesTo [0, 1] S_
  bcast_S_S1 : S_.BroadcastsInDim S1 (![] : Fin 0 → Fin S1.rank)
  reducesTo_S1_S_d0 : S1.ReducesTo [0] S_
  bcast_S_S32x1024x2 : S_.BroadcastsInDim S32x1024x2 (![] : Fin 0 → Fin S32x1024x2.rank)
  reducesTo_S32x1024x2_S_d0_1_2 : S32x1024x2.ReducesTo [0, 1, 2] S_

variable [Facts]

def fn_part1 {F : FTy → Type} [FloatOps F] (main_arg4 : FVec F S1 .f32) (main_arg5 : IVec S32x1024x2 32) (main_v13 : IVec S_ 1) (main_v16 : IVec S768x1 1) : IVec S_ 1 :=
  let main_c_5 : IVec S_ 1 := constantI S_ 1 1#1
  let main_v17 : IVec S_ 1 := (fun x v => Host.reduce IntOp.andi x v reducesTo_S768x1_S_d0_1 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  let main_c_8 : IVec S_ 32 := constantI S_ 32 0#32
  let main_v24 : IVec S32x1024x2 32 := broadcastInDim S32x1024x2 ![] bcast_S_S32x1024x2 main_c_8
  let main_v25 : IVec S32x1024x2 1 := cmpi .sge main_arg5 main_v24
  let main_c_9 : IVec S_ 1 := constantI S_ 1 1#1
  let main_v26 : IVec S_ 1 := (fun x v => Host.reduce IntOp.andi x v reducesTo_S32x1024x2_S_d0_1_2 h_S_) main_v25 main_c_9
  let main_v27 : IVec S_ 1 := andi main_v23 main_v26
  let main_c_10 : IVec S_ 32 := constantI S_ 32 512#32
  let main_v28 : IVec S32x1024x2 32 := broadcastInDim S32x1024x2 ![] bcast_S_S32x1024x2 main_c_10
  let main_v29 : IVec S32x1024x2 1 := cmpi .slt main_arg5 main_v28
  let main_c_11 : IVec S_ 1 := constantI S_ 1 1#1
  let main_v30 : IVec S_ 1 := (fun x v => Host.reduce IntOp.andi x v reducesTo_S32x1024x2_S_d0_1_2 h_S_) main_v29 main_c_11
  let main_v31 : IVec S_ 1 := andi main_v27 main_v30
  main_v31

def fn {F : FTy → Type} [FloatOps F] (main_arg0 : FVec F S32x512x768 .f32) (main_arg1 : FVec F S1536x768 .f32) (main_arg2 : FVec F S768 .f32) (main_arg3 : FVec F S768x1 .f32) (main_arg4 : FVec F S1 .f32) (main_arg5 : IVec S32x1024x2 32) : IVec S_ 1 :=
  let main_v0 : FVec F S32x512x768 .f32 := Host.absf main_arg0
  let main_cst : FVec F S_ .f32 := constant S_ .f32 0x7F800000#32
  let main_v1 : FVec F S32x512x768 .f32 := broadcastInDim S32x512x768 ![] bcast_S_S32x512x768 main_cst
  let main_v2 : IVec S32x512x768 1 := cmpf .olt main_v0 main_v1
  let main_c : IVec S_ 1 := constantI S_ 1 1#1
  let main_v3 : IVec S_ 1 := (fun x v => Host.reduce IntOp.andi x v reducesTo_S32x512x768_S_d0_1_2 h_S_) main_v2 main_c
  let main_v4 : FVec F S1536x768 .f32 := Host.absf main_arg1
  let main_cst_0 : FVec F S_ .f32 := constant S_ .f32 0x7F800000#32
  let main_v5 : FVec F S1536x768 .f32 := broadcastInDim S1536x768 ![] bcast_S_S1536x768 main_cst_0
  let main_v6 : IVec S1536x768 1 := cmpf .olt main_v4 main_v5
  let main_c_1 : IVec S_ 1 := constantI S_ 1 1#1
  let main_v7 : IVec S_ 1 := (fun x v => Host.reduce IntOp.andi x v reducesTo_S1536x768_S_d0_1 h_S_) main_v6 main_c_1
  let main_v8 : IVec S_ 1 := andi main_v3 main_v7
  let main_v9 : FVec F S768 .f32 := Host.absf main_arg2
  let main_cst_2 : FVec F S_ .f32 := constant S_ .f32 0x7F800000#32
  let main_v10 : FVec F S768 .f32 := broadcastInDim S768 ![] bcast_S_S768 main_cst_2
  let main_v11 : IVec S768 1 := cmpf .olt main_v9 main_v10
  let main_c_3 : IVec S_ 1 := constantI S_ 1 1#1
  let main_v12 : IVec S_ 1 := (fun x v => Host.reduce IntOp.andi x v reducesTo_S768_S_d0 h_S_) main_v11 main_c_3
  let main_v13 : IVec S_ 1 := andi main_v8 main_v12
  let main_v14 : FVec F S768x1 .f32 := Host.absf main_arg3
  let main_cst_4 : FVec F S_ .f32 := constant S_ .f32 0x7F800000#32
  let main_v15 : FVec F S768x1 .f32 := broadcastInDim S768x1 ![] bcast_S_S768x1 main_cst_4
  let main_v16 : IVec S768x1 1 := cmpf .olt main_v14 main_v15
  fn_part1 (F := F) main_arg4 main_arg5 main_v13 main_v16
-- ==== Kernel.lean ====
abbrev S32x512x768 : Shape := ⟨3, ![32, 512, 768]⟩
abbrev S1536x768 : Shape := ⟨2, ![1536, 768]⟩
abbrev S768 : Shape := ⟨1, ![768]⟩
abbrev S768x1 : Shape := ⟨2, ![768, 1]⟩
abbrev S1 : Shape := ⟨1, ![1]⟩
abbrev S32x1024x2 : Shape := ⟨3, ![32, 1024, 2]⟩
abbrev S32x1024x1 : Shape := ⟨3, ![32, 1024, 1]⟩
abbrev S32x1024 : Shape := ⟨2, ![32, 1024]⟩
abbrev S32x1x1024 : Shape := ⟨3, ![32, 1, 1024]⟩
abbrev S1x512x768 : Shape := ⟨3, ![1, 512, 768]⟩
abbrev S1x1x1024 : Shape := ⟨3, ![1, 1, 1024]⟩
abbrev S512x768 : Shape := ⟨2, ![512, 768]⟩
abbrev S1024 : Shape := ⟨1, ![1024]⟩
abbrev S1024x512 : Shape := ⟨2, ![1024, 512]⟩
abbrev S1024x1 : Shape := ⟨2, ![1024, 1]⟩
abbrev S1024x768 : Shape := ⟨2, ![1024, 768]⟩
abbrev S1024x1536 : Shape := ⟨2, ![1024, 1536]⟩
abbrev S1x768 : Shape := ⟨2, ![1, 768]⟩

abbrev nBuf : Space → Nat
  | .hbm => 14
  | .vmem => 12
  | .smem => 0
  | _ => 0

abbrev bufTy : (tb : Table) → Fin (tcTables nBuf tb) → BufTy
  | .hbm, ⟨0, _⟩ => ⟨S32x512x768, .f32⟩
  | .hbm, ⟨1, _⟩ => ⟨S1536x768, .f32⟩
  | .hbm, ⟨2, _⟩ => ⟨S768, .f32⟩
  | .hbm, ⟨3, _⟩ => ⟨S768x1, .f32⟩
  | .hbm, ⟨4, _⟩ => ⟨S1, .f32⟩
  | .hbm, ⟨5, _⟩ => ⟨S32x1024x2, .i32⟩
  | .hbm, ⟨6, _⟩ => ⟨S32x1024x1, .i32⟩
  | .hbm, ⟨7, _⟩ => ⟨S32x1024, .i32⟩
  | .hbm, ⟨8, _⟩ => ⟨S32x1024x1, .i32⟩
  | .hbm, ⟨9, _⟩ => ⟨S32x1024, .i32⟩
  | .hbm, ⟨10, _⟩ => ⟨S32x1x1024, .i32⟩
  | .hbm, ⟨11, _⟩ => ⟨S32x1x1024, .i32⟩
  | .hbm, ⟨12, _⟩ => ⟨S32x1x1024, .f32⟩
  | .hbm, ⟨13, _⟩ => ⟨S32x1024, .f32⟩
  | .local _ .vmem, ⟨0, _⟩ => ⟨S1x512x768, .f32⟩
  | .local _ .vmem, ⟨1, _⟩ => ⟨S1x512x768, .f32⟩
  | .local _ .vmem, ⟨2, _⟩ => ⟨S1x1x1024, .i32⟩
  | .local _ .vmem, ⟨3, _⟩ => ⟨S1x1x1024, .i32⟩
  | .local _ .vmem, ⟨4, _⟩ => ⟨S1x1x1024, .i32⟩
  | .local _ .vmem, ⟨5, _⟩ => ⟨S1x1x1024, .i32⟩
  | .local _ .vmem, ⟨6, _⟩ => ⟨S1536x768, .f32⟩
  | .local _ .vmem, ⟨7, _⟩ => ⟨S768, .f32⟩
  | .local _ .vmem, ⟨8, _⟩ => ⟨S768x1, .f32⟩
  | .local _ .vmem, ⟨9, _⟩ => ⟨S1, .f32⟩
  | .local _ .vmem, ⟨10, _⟩ => ⟨S1x1x1024, .f32⟩
  | .local _ .vmem, ⟨11, _⟩ => ⟨S1x1x1024, .f32⟩
  | _, _ => ⟨S32x512x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1536x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S768x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S32x1024x2_S32x1024x1_0_0_0 : S32x1024x2.Slices ![0, 0, 0] S32x1024x1
  shapeCasts_S32x1024x1_S32x1024 : S32x1024x1.ShapeCasts S32x1024
  slices_S32x1024x2_S32x1024x1_0_0_1 : S32x1024x2.Slices ![0, 0, 1] S32x1024x1
  bcast_S32x1024_S32x1x1024_0_2 : S32x1024.BroadcastsInDim S32x1x1024 (![0, 2] : Fin 2 → Fin S32x1x1024.rank)
  inb_S1x512x768_S1x512x768_0_0_0 : ∀ a, (![0, 0, 0] : Fin 3 → Nat) a + S1x512x768.size a ≤ S1x512x768.size a
  h_S1x512x768 : 0 < S1x512x768.numel
  shapeCasts_S1x512x768_S512x768 : S1x512x768.ShapeCasts S512x768
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1024 : S1x1x1024.ShapeCasts S1024
  iota_S1024x512_d1_w32 : S1024x512.Iotas .tc 32 [1]
  shapeCasts_S1024_S1024x1 : S1024.ShapeCasts S1024x1
  broadcasts_S1024x1_S1024x512 : S1024x1.Broadcasts S1024x512
  natLt_1_32 : 1 < 32
  bitsLt_bf16_f32 : FTy.bits .bf16 < FTy.bits .f32
  concatenates_S1024x768_S1024x768_S1024x1536_d1 : Shape.Concatenates [S1024x768, S1024x768] S1024x1536 1
  inb_S1536x768_S1536x768_0_0 : ∀ a, (![0, 0] : Fin 2 → Nat) a + S1536x768.size a ≤ S1536x768.size a
  h_S1536x768 : 0 < S1536x768.numel
  inb_S768_S768_0 : ∀ a, (![0] : Fin 1 → Nat) a + S768.size a ≤ S768.size a
  h_S768 : 0 < S768.numel
  shapeCasts_S768_S1x768 : S768.ShapeCasts S1x768
  broadcasts_S1x768_S1024x768 : S1x768.Broadcasts S1024x768
  inb_S768x1_S768x1_0_0 : ∀ a, (![0, 0] : Fin 2 → Nat) a + S768x1.size a ≤ S768x1.size a
  h_S768x1 : 0 < S768x1.numel
  shapeCasts_S768x1_S768 : S768x1.ShapeCasts S768
  reduces_S1024x768_S1024 : S1024x768.Reduces [1] S1024
  inb_S1_S1_0 : ∀ a, (![0] : Fin 1 → Nat) a + S1.size a ≤ S1.size a
  h_S1 : 0 < S1.numel
  inpos_S1_p0 : ∀ a, (![0] : Fin 1 → Nat) a < S1.size a
  shapeCasts_S1024_S1x1x1024 : S1024.ShapeCasts S1x1x1024
  shapeCasts_S32x1x1024_S32x1024 : S32x1x1024.ShapeCasts S32x1024
  dot_S1024x512_S512x768_S1024x768_1_0_0_1_n_n_wf : DotDims.WF S1024x512 S512x768 S1024x768 [1] [0] [0] [1] [] []
  dot_S1024x1536_S1536x768_S1024x768_1_0_0_1_n_n_wf : DotDims.WF S1024x1536 S1536x768 S1024x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x768.size a ≤ S32x512x768.size a
  hwx0_0 : ∀ i : grid0.Coords, EltTy.bits .f32 = 32 ∨ (Rect.block (s := S32x512x768) S1x512x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x1024.size a ≤ S32x1x1024.size a
  hwx0_1 : ∀ i : grid0.Coords, EltTy.bits .i32 = 32 ∨ (Rect.block (s := S32x1x1024) S1x1x1024.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1024.size a ≤ S32x1x1024.size a
  hwx0_2 : ∀ i : grid0.Coords, EltTy.bits .i32 = 32 ∨ (Rect.block (s := S32x1x1024) S1x1x1024.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1536x768.size a ≤ S1536x768.size a
  hwx0_3 : ∀ i : grid0.Coords, EltTy.bits .f32 = 32 ∨ (Rect.block (s := S1536x768) S1536x768.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S768.size a ≤ S768.size a
  hwx0_4 : ∀ i : grid0.Coords, EltTy.bits .f32 = 32 ∨ (Rect.block (s := S768) S768.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S768x1.size a ≤ S768x1.size a
  hwx0_5 : ∀ i : grid0.Coords, EltTy.bits .f32 = 32 ∨ (Rect.block (s := S768x1) S768x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1.size a ≤ S1.size a
  hwx0_6 : ∀ i : grid0.Coords, EltTy.bits .f32 = 32 ∨ (Rect.block (s := S1) S1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1x1024.size a ≤ S32x1x1024.size a
  hwx0_7 : ∀ i : grid0.Coords, EltTy.bits .f32 = 32 ∨ (Rect.block (s := S32x1x1024) S1x1x1024.size (cc0_transform_7 i) (hinb0_7 i)).WholeWords (EltTy.packing .f32)

variable [Facts₀]

def dot_S1024x512_S512x768_S1024x768_1_0_0_1_n_n : DotDims S1024x512 S512x768 S1024x768 where
  lhsContracting := [1]
  rhsContracting := [0]
  lhsNonContracting := [0]
  rhsNonContracting := [1]
  lhsBatch := []
  rhsBatch := []
  wf := dot_S1024x512_S512x768_S1024x768_1_0_0_1_n_n_wf
def dot_S1024x1536_S1536x768_S1024x768_1_0_0_1_n_n : DotDims S1024x1536 S1536x768 S1024x768 where
  lhsContracting := [1]
  rhsContracting := [0]
  lhsNonContracting := [0]
  rhsNonContracting := [1]
  lhsBatch := []
  rhsBatch := []
  wf := dot_S1024x1536_S1536x768_S1024x768_1_0_0_1_n_n_wf

abbrev win0_0 : Pipeline.Window sig grid0 :=
  Pipeline.Window.ofSpec (Memref.whole main_arg0) S1x512x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1x1x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S1536x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S768.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg3) S768x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg4) S1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6) S1x1x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S32x512x768 : Shape := ⟨3, ![32, 512, 768]⟩
abbrev S1536x768 : Shape := ⟨2, ![1536, 768]⟩
abbrev S768 : Shape := ⟨1, ![768]⟩
abbrev S768x1 : Shape := ⟨2, ![768, 1]⟩
abbrev S1 : Shape := ⟨1, ![1]⟩
abbrev S32x1024x2 : Shape := ⟨3, ![32, 1024, 2]⟩
abbrev S32x1024x1 : Shape := ⟨3, ![32, 1024, 1]⟩
abbrev S32x1024 : Shape := ⟨2, ![32, 1024]⟩
abbrev S_ : Shape := ⟨0, ![]⟩
abbrev S1x1x1 : Shape := ⟨3, ![1, 1, 1]⟩
abbrev S32x1024x768 : Shape := ⟨3, ![32, 1024, 768]⟩
abbrev S32x1024x1536 : Shape := ⟨3, ![32, 1024, 1536]⟩
abbrev S1x1x768 : Shape := ⟨3, ![1, 1, 768]⟩

abbrev nBuf : Space → Nat
  | .hbm => 69
  | .vmem => 0
  | .smem => 0
  | _ => 0

abbrev bufTy : (tb : Table) → Fin (tcTables nBuf tb) → BufTy
  | .hbm, ⟨0, _⟩ => ⟨S32x512x768, .f32⟩
  | .hbm, ⟨1, _⟩ => ⟨S1536x768, .f32⟩
  | .hbm, ⟨2, _⟩ => ⟨S768, .f32⟩
  | .hbm, ⟨3, _⟩ => ⟨S768x1, .f32⟩
  | .hbm, ⟨4, _⟩ => ⟨S1, .f32⟩
  | .hbm, ⟨5, _⟩ => ⟨S32x1024x2, .i32⟩
  | .hbm, ⟨6, _⟩ => ⟨S32x1024x1, .i32⟩
  | .hbm, ⟨7, _⟩ => ⟨S32x1024, .i32⟩
  | .hbm, ⟨8, _⟩ => ⟨S32x1024x1, .i32⟩
  | .hbm, ⟨9, _⟩ => ⟨S32x1024, .i32⟩
  | .hbm, ⟨10, _⟩ => ⟨S32x1024x1, .i32⟩
  | .hbm, ⟨11, _⟩ => ⟨S_, .i32⟩
  | .hbm, ⟨12, _⟩ => ⟨S32x1024x1, .i32⟩
  | .hbm, ⟨13, _⟩ => ⟨S32x1024x1, .i1⟩
  | .hbm, ⟨14, _⟩ => ⟨S_, .i32⟩
  | .hbm, ⟨15, _⟩ => ⟨S32x1024x1, .i32⟩
  | .hbm, ⟨16, _⟩ => ⟨S32x1024x1, .i32⟩
  | .hbm, ⟨17, _⟩ => ⟨S32x1024x1, .i32⟩
  | .hbm, ⟨18, _⟩ => ⟨S1, .i32⟩
  | .hbm, ⟨19, _⟩ => ⟨S_, .i32⟩
  | .hbm, ⟨20, _⟩ => ⟨S32x1024x1, .i32⟩
  | .hbm, ⟨21, _⟩ => ⟨S32x1024x1, .i1⟩
  | .hbm, ⟨22, _⟩ => ⟨S1x1x1, .i32⟩
  | .hbm, ⟨23, _⟩ => ⟨S32x1024x1, .i32⟩
  | .hbm, ⟨24, _⟩ => ⟨S32x1024x1, .i1⟩
  | .hbm, ⟨25, _⟩ => ⟨S32x1024x1, .i1⟩
  | .hbm, ⟨26, _⟩ => ⟨S_, .i1⟩
  | .hbm, ⟨27, _⟩ => ⟨S32x1024, .i1⟩
  | .hbm, ⟨28, _⟩ => ⟨S32x1024x768, .f32⟩
  | .hbm, ⟨29, _⟩ => ⟨S32x1024x768, .i1⟩
  | .hbm, ⟨30, _⟩ => ⟨S_, .f32⟩
  | .hbm, ⟨31, _⟩ => ⟨S32x1024x768, .f32⟩
  | .hbm, ⟨32, _⟩ => ⟨S32x1024x768, .f32⟩
  | .hbm, ⟨33, _⟩ => ⟨S32x1024x1, .i32⟩
  | .hbm, ⟨34, _⟩ => ⟨S_, .i32⟩
  | .hbm, ⟨35, _⟩ => ⟨S32x1024x1, .i32⟩
  | .hbm, ⟨36, _⟩ => ⟨S32x1024x1, .i1⟩
  | .hbm, ⟨37, _⟩ => ⟨S_, .i32⟩
  | .hbm, ⟨38, _⟩ => ⟨S32x1024x1, .i32⟩
  | .hbm, ⟨39, _⟩ => ⟨S32x1024x1, .i32⟩
  | .hbm, ⟨40, _⟩ => ⟨S32x1024x1, .i32⟩
  | .hbm, ⟨41, _⟩ => ⟨S1, .i32⟩
  | .hbm, ⟨42, _⟩ => ⟨S_, .i32⟩
  | .hbm, ⟨43, _⟩ => ⟨S32x1024x1, .i32⟩
  | .hbm, ⟨44, _⟩ => ⟨S32x1024x1, .i1⟩
  | .hbm, ⟨45, _⟩ => ⟨S1x1x1, .i32⟩
  | .hbm, ⟨46, _⟩ => ⟨S32x1024x1, .i32⟩
  | .hbm, ⟨47, _⟩ => ⟨S32x1024x1, .i1⟩
  | .hbm, ⟨48, _⟩ => ⟨S32x1024x1, .i1⟩
  | .hbm, ⟨49, _⟩ => ⟨S_, .i1⟩
  | .hbm, ⟨50, _⟩ => ⟨S32x1024, .i1⟩
  | .hbm, ⟨51, _⟩ => ⟨S32x1024x768, .f32⟩
  | .hbm, ⟨52, _⟩ => ⟨S32x1024x768, .i1⟩
  | .hbm, ⟨53, _⟩ => ⟨S_, .f32⟩
  | .hbm, ⟨54, _⟩ => ⟨S32x1024x768, .f32⟩
  | .hbm, ⟨55, _⟩ => ⟨S32x1024x768, .f32⟩
  | .hbm, ⟨56, _⟩ => ⟨S32x1024x1536, .f32⟩
  | .hbm, ⟨57, _⟩ => ⟨S32x1024x768, .f32⟩
  | .hbm, ⟨58, _⟩ => ⟨S1x1x768, .f32⟩
  | .hbm, ⟨59, _⟩ => ⟨S32x1024x768, .f32⟩
  | .hbm, ⟨60, _⟩ => ⟨S32x1024x768, .f32⟩
  | .hbm, ⟨61, _⟩ => ⟨S_, .f32⟩
  | .hbm, ⟨62, _⟩ => ⟨S32x1024x768, .f32⟩
  | .hbm, ⟨63, _⟩ => ⟨S32x1024x768, .f32⟩
  | .hbm, ⟨64, _⟩ => ⟨S32x1024x1, .f32⟩
  | .hbm, ⟨65, _⟩ => ⟨S1x1x1, .f32⟩
  | .hbm, ⟨66, _⟩ => ⟨S32x1024x1, .f32⟩
  | .hbm, ⟨67, _⟩ => ⟨S32x1024x1, .f32⟩
  | .hbm, ⟨68, _⟩ => ⟨S32x1024, .f32⟩
  | _, _ => ⟨S32x512x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_c : Ref sig .tc := ⟨.hbm, 11, rfl⟩
abbrev main_call0_v0 : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_c_1 : Ref sig .tc := ⟨.hbm, 18, rfl⟩
abbrev main_call0_c_2 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_c_3 : Ref sig .tc := ⟨.hbm, 26, rfl⟩
abbrev main_call0_v11 : Ref sig .tc := ⟨.hbm, 27, rfl⟩
abbrev main_call0_v12 : Ref sig .tc := ⟨.hbm, 28, rfl⟩
abbrev main_call0_v13 : Ref sig .tc := ⟨.hbm, 29, rfl⟩
abbrev main_call0_cst : Ref sig .tc := ⟨.hbm, 30, rfl⟩
abbrev main_call0_v14 : Ref sig .tc := ⟨.hbm, 31, rfl⟩
abbrev main_v5 : Ref sig .tc := ⟨.hbm, 32, rfl⟩
abbrev main_v6 : Ref sig .tc := ⟨.hbm, 33, rfl⟩
abbrev main_call1_c : Ref sig .tc := ⟨.hbm, 34, rfl⟩
abbrev main_call1_v0 : Ref sig .tc := ⟨.hbm, 35, rfl⟩
abbrev main_call1_v1 : Ref sig .tc := ⟨.hbm, 36, rfl⟩
abbrev main_call1_c_0 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_c_1 : Ref sig .tc := ⟨.hbm, 41, rfl⟩
abbrev main_call1_c_2 : Ref sig .tc := ⟨.hbm, 42, rfl⟩
abbrev main_call1_v5 : Ref sig .tc := ⟨.hbm, 43, rfl⟩
abbrev main_call1_v6 : Ref sig .tc := ⟨.hbm, 44, rfl⟩
abbrev main_call1_v7 : Ref sig .tc := ⟨.hbm, 45, rfl⟩
abbrev main_call1_v8 : Ref sig .tc := ⟨.hbm, 46, rfl⟩
abbrev main_call1_v9 : Ref sig .tc := ⟨.hbm, 47, rfl⟩
abbrev main_call1_v10 : Ref sig .tc := ⟨.hbm, 48, rfl⟩
abbrev main_call1_c_3 : Ref sig .tc := ⟨.hbm, 49, rfl⟩
abbrev main_call1_v11 : Ref sig .tc := ⟨.hbm, 50, rfl⟩
abbrev main_call1_v12 : Ref sig .tc := ⟨.hbm, 51, rfl⟩
abbrev main_call1_v13 : Ref sig .tc := ⟨.hbm, 52, rfl⟩
abbrev main_call1_cst : Ref sig .tc := ⟨.hbm, 53, rfl⟩
abbrev main_call1_v14 : Ref sig .tc := ⟨.hbm, 54, rfl⟩
abbrev main_v7 : Ref sig .tc := ⟨.hbm, 55, rfl⟩
abbrev main_v8 : Ref sig .tc := ⟨.hbm, 56, rfl⟩
abbrev main_v9 : Ref sig .tc := ⟨.hbm, 57, rfl⟩
abbrev main_v10 : Ref sig .tc := ⟨.hbm, 58, rfl⟩
abbrev main_v11 : Ref sig .tc := ⟨.hbm, 59, rfl⟩
abbrev main_v12 : Ref sig .tc := ⟨.hbm, 60, rfl⟩
abbrev main_call2_cst : Ref sig .tc := ⟨.hbm, 61, rfl⟩
abbrev main_call2_v0 : Ref sig .tc := ⟨.hbm, 62, rfl⟩
abbrev main_v13 : Ref sig .tc := ⟨.hbm, 63, rfl⟩
abbrev main_v14 : Ref sig .tc := ⟨.hbm, 64, rfl⟩
abbrev main_v15 : Ref sig .tc := ⟨.hbm, 65, rfl⟩
abbrev main_v16 : Ref sig .tc := ⟨.hbm, 66, rfl⟩
abbrev main_v17 : Ref sig .tc := ⟨.hbm, 67, rfl⟩
abbrev main_v18 : Ref sig .tc := ⟨.hbm, 68, rfl⟩

abbrev nD : Nat := 1
abbrev τ : Topo := Topo.v7x

variable {F : FTy → Type} [FloatOps F]

class Facts₀ : Prop where
  slices_S32x1024x2_S32x1024x1_0_0_0 : S32x1024x2.Slices ![0, 0, 0] S32x1024x1
  shapeCasts_S32x1024x1_S32x1024 : S32x1024x1.ShapeCasts S32x1024
  slices_S32x1024x2_S32x1024x1_0_0_1 : S32x1024x2.Slices ![0, 0, 1] S32x1024x1
  bcast_S32x1024_S32x1024x1_0_1 : S32x1024.BroadcastsInDim S32x1024x1 (![0, 1] : Fin 2 → Fin S32x1024x1.rank)
  bcast_S_S32x1024x1 : S_.BroadcastsInDim S32x1024x1 (![] : Fin 0 → Fin S32x1024x1.rank)
  bcast_S1_S1x1x1_2 : S1.BroadcastsInDim S1x1x1 (![2] : Fin 1 → Fin S1x1x1.rank)
  bcast_S1x1x1_S32x1024x1_0_1_2 : S1x1x1.BroadcastsInDim S32x1024x1 (![0, 1, 2] : Fin 3 → Fin S32x1024x1.rank)
  reducesTo_S32x1024x1_S32x1024_d2 : S32x1024x1.ReducesTo [2] S32x1024
  h_S_ : 0 < S_.numel
  bcast_S32x1024_S32x1024x768_0_1 : S32x1024.BroadcastsInDim S32x1024x768 (![0, 1] : Fin 2 → Fin S32x1024x768.rank)
  bcast_S_S32x1024x768 : S_.BroadcastsInDim S32x1024x768 (![] : Fin 0 → Fin S32x1024x768.rank)
  concatenates_S32x1024x768_S32x1024x768_S32x1024x1536_d2 : Shape.Concatenates [S32x1024x768, S32x1024x768] S32x1024x1536 2
  bcast_S768_S1x1x768_2 : S768.BroadcastsInDim S1x1x768 (![2] : Fin 1 → Fin S1x1x768.rank)
  bcast_S1x1x768_S32x1024x768_0_1_2 : S1x1x768.BroadcastsInDim S32x1024x768 (![0, 1, 2] : Fin 3 → Fin S32x1024x768.rank)
  gather_S32x512x768_S32x1024x1_S32x1024x768_2_1_0_0_1_2_11768_wf : GatherDims.WF S32x512x768 S32x1024x1 S32x1024x768 [2] [1] [0] [1] [0] 2 ![1, 1, 768]
  dot_S32x1024x1536_S1536x768_S32x1024x768_2_0_01_1_n_n_wf : DotDims.WF S32x1024x1536 S1536x768 S32x1024x768 [2] [0] [0, 1] [1] [] []
  dot_S32x1024x768_S768x1_S32x1024x1_2_0_01_1_n_n_wf : DotDims.WF S32x1024x768 S768x1 S32x1024x1 [2] [0] [0, 1] [1] [] []

variable [Facts₀]

def gather_S32x512x768_S32x1024x1_S32x1024x768_2_1_0_0_1_2_11768 : GatherDims S32x512x768 S32x1024x1 S32x1024x768 where
  offsetDims := [2]
  collapsedSliceDims := [1]
  operandBatchingDims := [0]
  startIndicesBatchingDims := [0]
  startIndexMap := [1]
  indexVectorDim := 2
  sliceSizes := ![1, 1, 768]
  wf := gather_S32x512x768_S32x1024x1_S32x1024x768_2_1_0_0_1_2_11768_wf
def dot_S32x1024x1536_S1536x768_S32x1024x768_2_0_01_1_n_n : DotDims S32x1024x1536 S1536x768 S32x1024x768 where
  lhsContracting := [2]
  rhsContracting := [0]
  lhsNonContracting := [0, 1]
  rhsNonContracting := [1]
  lhsBatch := []
  rhsBatch := []
  wf := dot_S32x1024x1536_S1536x768_S32x1024x768_2_0_01_1_n_n_wf
def dot_S32x1024x768_S768x1_S32x1024x1_2_0_01_1_n_n : DotDims S32x1024x768 S768x1 S32x1024x1 where
  lhsContracting := [2]
  rhsContracting := [0]
  lhsNonContracting := [0, 1]
  rhsNonContracting := [1]
  lhsBatch := []
  rhsBatch := []
  wf := dot_S32x1024x768_S768x1_S32x1024x1_2_0_01_1_n_n_wf

class Facts : Prop extends Facts₀ where

variable [Facts]
-- ==== Proof.SpanLogit.lean ====
/-
  The mathematics both programs compute, as one function of the argument arrays.

  For batch `b` and span `n` the two index words `sp[b, n, 0]` and `sp[b, n, 1]` each select a token row of
  `lh[b]` (`row`: the word read signed and clamped into `[0, 511]`; on words already in `[0, 512)` it is the
  word itself). The span's representation is the start row followed by the end row, 1536 entries (`rep`);
  the logit is the width-one projection of the rectified affine image of that representation:

    logit b n = (∑ h, max ((∑ d, rep b n d * W1[d, h]) + b1[h]) 0 * W2[h, 0]) + b2[0].

  Also here: a sum weighted by an indicator of one index is that index's term. On the extended reals this
  needs no finiteness, because `0 * x = 0` for every `x`, the infinities included.
-/
import Idealize.ShloMosaic.PureOps.Ideal
import Idealize.ShloMosaic.Lib.ValueIdx

noncomputable section

open scoped BigOperators

namespace Cert.SpanLogit

open Idealize.ShloMosaic Idealize.ShloMosaic.ValueIdx

abbrev Slh : Shape := ⟨3, ![32, 512, 768]⟩
abbrev SW1 : Shape := ⟨2, ![1536, 768]⟩
abbrev Sb1 : Shape := ⟨1, ![768]⟩
abbrev SW2 : Shape := ⟨2, ![768, 1]⟩
abbrev Sb2 : Shape := ⟨1, ![1]⟩
abbrev Ssp : Shape := ⟨3, ![32, 1024, 2]⟩
abbrev Sout : Shape := ⟨2, ![32, 1024]⟩

/-- The token row an index word selects: its signed value clamped into `[0, 511]`. -/
def row (w : BitVec 32) : Fin 512 := ⟨min w.toInt.toNat 511, by omega⟩

/-- A word whose signed value lies in `[0, 512)` selects the row of that value, which is also its unsigned value. -/
theorem row_val_of_range {w : BitVec 32} (h0 : 0 ≤ w.toInt) (h1 : w.toInt < 512) : (row w).val = w.toNat := by
  have hw := w.isLt
  have : w.toInt = (w.toNat : Int) := by
    rw [BitVec.toInt_eq_toNat_cond] at h0 h1 ⊢
    split at h0 <;> split <;> omega
  unfold row
  show min w.toInt.toNat 511 = w.toNat
  omega

/-- Entry `d` of span `n`'s representation in batch `b`: the start row's entry `d` for `d < 768`, else the end
    row's entry `d - 768`. -/
def rep (lh : Slh.Idx → EReal) (sp : Ssp.Idx → BitVec 32) (b : Fin 32) (n : Fin 1024) (d : Fin 1536) : EReal :=
  if h : d.val < 768 then lh (ix3 b (row (sp (ix3 b n 0))) ⟨d.val, h⟩)
  else lh (ix3 b (row (sp (ix3 b n 1))) ⟨d.val - 768, by have := d.isLt; omega⟩)

/-- The logit of span `n` in batch `b`. -/
def logit (lh : Slh.Idx → EReal) (W1 : SW1.Idx → EReal) (b1 : Sb1.Idx → EReal) (W2 : SW2.Idx → EReal)
    (b2 : Sb2.Idx → EReal) (sp : Ssp.Idx → BitVec 32) (b : Fin 32) (n : Fin 1024) : EReal :=
  (∑ h : Fin 768, max ((∑ d : Fin 1536, rep lh sp b n d * W1 (ix2 d h)) + b1 (ix1 h)) 0 * W2 (ix2 h 0)) + b2 (ix1 0)

/-- The whole result array. -/
def G (lh : Slh.Idx → EReal) (W1 : SW1.Idx → EReal) (b1 : Sb1.Idx → EReal) (W2 : SW2.Idx → EReal)
    (b2 : Sb2.Idx → EReal) (sp : Ssp.Idx → BitVec 32) : Sout.Idx → EReal :=
  fun i => logit lh W1 b1 W2 b2 sp (i 0) (i 1)

/-- A sum weighted by the indicator of one index is that index's term, on all of the extended reals. -/
theorem sum_indicator_mul {N : Nat} (k : Fin N) (c x : Fin N → EReal) (hk : c k = 1) (h0 : ∀ s, s ≠ k → c s = 0) :
    ∑ s : Fin N, c s * x s = x k := by
  rw [Finset.sum_eq_single k (fun s _ hs => by rw [h0 s hs, zero_mul]) (fun h => absurd (Finset.mem_univ k) h), hk, one_mul]

end Cert.SpanLogit

end
-- ==== Proof.IndexRange.lean ====
/-
  The certificate's precondition, read back at the index input. The printed precondition is the
  conjunction of seven all-elements tests; its last two say of the int32[32, 1024, 2] index input that
  every word is at least 0 and that every word is below 512, both read signed. From "the precondition's
  value is 1" this module extracts those two facts at every entry. The five finiteness tests of the float
  inputs are dropped.

  The steps: the precondition's value is a scalar, so the equation is read at the scalar's one index; a
  conjunction of bits is 1 exactly when each bit is 1; a reduction by "and" over all axes that is 1 met a 1
  at every entry; the entry of a compare against a broadcast scalar is the compare of the word with that
  scalar; and a signed compare word being 1 is the order of the two signed values.
-/
import proofs.«409077_j42752104465048_3_alg».proof.Pre_finite_inputs
import Idealize.ShloMosaic.Lib.ReduceAll
import Idealize.ShloMosaic.Lib.StableHlo.Predicate
import Idealize.ShloMosaic.Lib.ValueIdx

namespace Cert.IndexRange
open Idealize.ShloMosaic

variable {F : FTy → Type} [FloatOps F] [Cert.Pre_finite_inputs.Facts]

/-- A word that tests "at least 0" and "below 512", both signed, has its signed value in [0, 512). -/
theorem word_in_range (w : BitVec 32) (hge : IntOp.cmpi .sge w 0#32 = 1#1) (hlt : IntOp.cmpi .slt w 512#32 = 1#1) :
    0 ≤ w.toInt ∧ w.toInt < 512 := by
  have z : (0#32 : BitVec 32).toInt = 0 := by decide
  have c : (512#32 : BitVec 32).toInt = 512 := by decide
  have h0 := IntOp.cmpi_sge.1 hge
  have h512 := IntOp.cmpi_slt.1 hlt
  rw [z] at h0
  rw [c] at h512
  exact ⟨h0, h512⟩

/-- Under the precondition every index word is nonnegative and below the row count 512. -/
theorem range_of_pre
    (a0 : FVec F Cert.Pre_finite_inputs.S32x512x768 .f32) (a1 : FVec F Cert.Pre_finite_inputs.S1536x768 .f32)
    (a2 : FVec F Cert.Pre_finite_inputs.S768 .f32) (a3 : FVec F Cert.Pre_finite_inputs.S768x1 .f32)
    (a4 : FVec F Cert.Pre_finite_inputs.S1 .f32) (a5 : IVec Cert.Pre_finite_inputs.S32x1024x2 32)
    (h : Cert.Pre_finite_inputs.fn (F := F) a0 a1 a2 a3 a4 a5 = (fun _ => 1#1)) :
    ∀ i : Cert.Pre_finite_inputs.S32x1024x2.Idx, 0 ≤ (a5 i).toInt ∧ (a5 i).toInt < 512 := by
  intro i
  -- the scalar shape has one index
  haveI : Subsingleton Cert.Pre_finite_inputs.S_.Idx := ⟨fun a b => funext fun d => d.elim0⟩
  -- the precondition's value at that index is 1
  have hval := congrFun h ValueIdx.ix0
  dsimp only [Cert.Pre_finite_inputs.fn, Cert.Pre_finite_inputs.fn_part1, andi] at hval
  -- the last conjunct is "every word is below 512", the one before it "every word is at least 0"
  obtain ⟨hrest, hallLt⟩ := IntOp.andi_eq_one.1 hval
  obtain ⟨_, hallGe⟩ := IntOp.andi_eq_one.1 hrest
  -- each all-elements test, read at entry i: the compare of word i against the broadcast scalar
  have hge : IntOp.cmpi .sge (a5 i) 0#32 = 1#1 := Host.reduce_andi_all _ _ _ _ _ hallGe i
  have hlt : IntOp.cmpi .slt (a5 i) 512#32 = 1#1 := Host.reduce_andi_all _ _ _ _ _ hallLt i
  exact word_in_range (a5 i) hge hlt

end Cert.IndexRange
-- ==== Proof.KernelEntry.lean ====
/-
  The kernel body's arithmetic read at one entry.

  At one grid point the body holds a batch's hidden states `tab` (512 rows of 768), two vectors of 1024 index
  words, and the classifier's weights. It selects rows by multiplying an indicator matrix with the table:
  entry (n, s) of the indicator is 1 when the column number s equals the n-th index word and 0 otherwise, so
  row n of the product is the table's row at that word, provided the word is a row number. The two selected
  rows are joined into a 1536-vector, multiplied by the first weight matrix, shifted by the first bias,
  rectified, multiplied entrywise by the second weight's one column and summed over the 768 hidden units; the
  second bias is added.
-/
import proofs.«409077_j42752104465048_3_alg».proof.Proof.Gen.KernelIdeal.Skeleton
import proofs.«409077_j42752104465048_3_alg».proof.Proof.SpanLogit
import Idealize.ShloMosaic.Lib.ValueIdx
import Idealize.ShloMosaic.Lib.ValueLayout
import Idealize.ShloMosaic.Lib.Pipeline.Value
import Idealize.ShloMosaic.Lib.StableHlo.Predicate
import Idealize.ShloMosaic.PureOps.Ideal.Laws

noncomputable section

open scoped BigOperators

namespace Cert.KernelEntry

open Cert.KernelIdeal Cert.KernelIdeal.Gen Idealize.ShloMosaic Idealize.ShloMosaic.ValueIdx

/-! ## The indicator matrix -/

/-- A compared bit, widened to a word and converted to a float, is 1 when the two words are equal and 0 otherwise. -/
theorem weight_eq (a w : BitVec 32) :
    (FloatOps.sitofp (F := Ideal) .f32 ((IntOp.cmpi .eq a w).setWidth 32) : EReal) = if a = w then 1 else 0 := by
  show ((((IntOp.cmpi .eq a w).setWidth 32).toInt : ℝ) : EReal) = _
  rcases BitVec.eq_zero_or_eq_one (IntOp.cmpi .eq a w) with h | h
  · have hne : ¬ a = w := fun e => by
      have := StableHlo.Predicate.cmpi_eq_iff.mpr e
      rw [h] at this; exact absurd this (by decide)
    rw [h, if_neg hne]
    show (((0 : Int) : ℝ) : EReal) = 0
    simp
  · rw [h, if_pos (StableHlo.Predicate.cmpi_eq_iff.mp h)]
    show (((1 : Int) : ℝ) : EReal) = 1
    simp

/-- Entry (n, s) of the indicator matrix built from a vector of index words: 1 when s is the n-th word. -/
theorem indicator_apply (words : IVec S1024 32) (n : Fin 1024) (s : Fin 512) :
    (truncf .bf16 (sitofp (F := Ideal) .f32 (extui 32 (cmpi .eq (iota .tc S1024x512 32 [1] iota_S1024x512_d1_w32)
        (broadcastTo S1024x512 (shapeCast S1024x1 words shapeCasts_S1024_S1024x1) broadcasts_S1024x1_S1024x512)) natLt_1_32))
      bitsLt_bf16_f32 : FVec Ideal S1024x512 .bf16) (ix2 n s)
      = if BitVec.ofNat 32 s.val = words (ix1 n) then 1 else 0 := by
  rw [truncf_apply, sitofp_apply, extui_apply]
  show (FloatOps.sitofp (F := Ideal) .f32 ((IntOp.cmpi .eq (iota .tc S1024x512 32 [1] iota_S1024x512_d1_w32 (ix2 n s))
      (broadcastTo S1024x512 (shapeCast S1024x1 words shapeCasts_S1024_S1024x1) broadcasts_S1024x1_S1024x512 (ix2 n s))).setWidth 32) : EReal) = _
  rw [weight_eq, iota_single_apply]
  have hb : broadcastTo S1024x512 (shapeCast S1024x1 words shapeCasts_S1024_S1024x1) broadcasts_S1024x1_S1024x512 (ix2 n s)
      = words (ix1 n) := by
    rw [broadcastTo_apply _ _ (ix2 n s) (ix2 n (0 : Fin 1)) (fun a => by
      match a with
      | ⟨0, _⟩ => rfl
      | ⟨1, _⟩ => rfl)]
    exact shapeCast_apply _ _ _ (ix1 n) (by
      rw [Shape.rowMajor_val_one, Shape.rowMajor_val_two]
      show n.val = n.val * 1 + 0
      omega)
  rw [hb]

/-! ## The two matrix products as plain sums -/

theorem selDot_lhs_0 (i : S1024x768.Idx) (q : dot_S1024x512_S512x768_S1024x768_1_0_0_1_n_n.contr.Idx) : (dot_S1024x512_S512x768_S1024x768_1_0_0_1_n_n.lhsIdx i q 0).val = (i 0).val := by
  unfold DotDims.lhsIdx
  rw [dif_neg (show ¬(0 : Fin S1024x512.rank) ∈ dot_S1024x512_S512x768_S1024x768_1_0_0_1_n_n.lhsBatch by decide), dif_pos (show (0 : Fin S1024x512.rank) ∈ dot_S1024x512_S512x768_S1024x768_1_0_0_1_n_n.lhsNonContracting by decide)]
  rfl
theorem selDot_lhs_1 (i : S1024x768.Idx) (q : dot_S1024x512_S512x768_S1024x768_1_0_0_1_n_n.contr.Idx) : (dot_S1024x512_S512x768_S1024x768_1_0_0_1_n_n.lhsIdx i q 1).val = (q ⟨0, by decide⟩).val :=
  dot_S1024x512_S512x768_S1024x768_1_0_0_1_n_n.lhsIdx_val_of_single rfl i q
theorem selDot_rhs_0 (i : S1024x768.Idx) (q : dot_S1024x512_S512x768_S1024x768_1_0_0_1_n_n.contr.Idx) : (dot_S1024x512_S512x768_S1024x768_1_0_0_1_n_n.rhsIdx i q 0).val = (q ⟨0, by decide⟩).val :=
  dot_S1024x512_S512x768_S1024x768_1_0_0_1_n_n.rhsIdx_val_of_single rfl i q
theorem selDot_rhs_1 (i : S1024x768.Idx) (q : dot_S1024x512_S512x768_S1024x768_1_0_0_1_n_n.contr.Idx) : (dot_S1024x512_S512x768_S1024x768_1_0_0_1_n_n.rhsIdx i q 1).val = (i 1).val := by
  unfold DotDims.rhsIdx
  rw [dif_neg (show ¬(1 : Fin S512x768.rank) ∈ dot_S1024x512_S512x768_S1024x768_1_0_0_1_n_n.rhsBatch by decide), dif_pos (show (1 : Fin S512x768.rank) ∈ dot_S1024x512_S512x768_S1024x768_1_0_0_1_n_n.rhsNonContracting by decide)]
  rfl

/-- The product into the zero accumulator, read at (n, h): the sum over the shared axis of extent 512. -/
theorem selDot_apply {φ₁ φ₂ : FTy} (l : FVec Ideal S1024x512 φ₁) (r : FVec Ideal S512x768 φ₂) (n : Fin 1024) (h : Fin 768) :
    matmul dot_S1024x512_S512x768_S1024x768_1_0_0_1_n_n none l r (constant S1024x768 .f32 0x00000000#32) (ix2 n h)
      = ∑ k : Fin 512, l (ix2 n k) * r (ix2 k h) := by
  show FloatOps.matmul dot_S1024x512_S512x768_S1024x768_1_0_0_1_n_n none l r (constant S1024x768 .f32 0x00000000#32) (ix2 n h) = _
  rw [Ideal.matmul_constant_zero_apply, ← Equiv.sum_comp (contrEquiv1 dot_S1024x512_S512x768_S1024x768_1_0_0_1_n_n 512 rfl rfl).symm]
  refine Finset.sum_congr rfl fun k _ => ?_
  have hk := contrEquiv1_symm_val dot_S1024x512_S512x768_S1024x768_1_0_0_1_n_n 512 rfl rfl k
  have el : dot_S1024x512_S512x768_S1024x768_1_0_0_1_n_n.lhsIdx (ix2 n h) ((contrEquiv1 dot_S1024x512_S512x768_S1024x768_1_0_0_1_n_n 512 rfl rfl).symm k) = ix2 n k := funext fun a => Fin.ext (by
    match a with
    | ⟨0, _⟩ => exact selDot_lhs_0 _ _
    | ⟨1, _⟩ => exact (selDot_lhs_1 _ _).trans hk)
  have er : dot_S1024x512_S512x768_S1024x768_1_0_0_1_n_n.rhsIdx (ix2 n h) ((contrEquiv1 dot_S1024x512_S512x768_S1024x768_1_0_0_1_n_n 512 rfl rfl).symm k) = ix2 k h := funext fun a => Fin.ext (by
    match a with
    | ⟨0, _⟩ => exact (selDot_rhs_0 _ _).trans hk
    | ⟨1, _⟩ => exact selDot_rhs_1 _ _)
  rw [el, er]

theorem mlpDot_lhs_0 (i : S1024x768.Idx) (q : dot_S1024x1536_S1536x768_S1024x768_1_0_0_1_n_n.contr.Idx) : (dot_S1024x1536_S1536x768_S1024x768_1_0_0_1_n_n.lhsIdx i q 0).val = (i 0).val := by
  unfold DotDims.lhsIdx
  rw [dif_neg (show ¬(0 : Fin S1024x1536.rank) ∈ dot_S1024x1536_S1536x768_S1024x768_1_0_0_1_n_n.lhsBatch by decide), dif_pos (show (0 : Fin S1024x1536.rank) ∈ dot_S1024x1536_S1536x768_S1024x768_1_0_0_1_n_n.lhsNonContracting by decide)]
  rfl
theorem mlpDot_lhs_1 (i : S1024x768.Idx) (q : dot_S1024x1536_S1536x768_S1024x768_1_0_0_1_n_n.contr.Idx) : (dot_S1024x1536_S1536x768_S1024x768_1_0_0_1_n_n.lhsIdx i q 1).val = (q ⟨0, by decide⟩).val :=
  dot_S1024x1536_S1536x768_S1024x768_1_0_0_1_n_n.lhsIdx_val_of_single rfl i q
theorem mlpDot_rhs_0 (i : S1024x768.Idx) (q : dot_S1024x1536_S1536x768_S1024x768_1_0_0_1_n_n.contr.Idx) : (dot_S1024x1536_S1536x768_S1024x768_1_0_0_1_n_n.rhsIdx i q 0).val = (q ⟨0, by decide⟩).val :=
  dot_S1024x1536_S1536x768_S1024x768_1_0_0_1_n_n.rhsIdx_val_of_single rfl i q
theorem mlpDot_rhs_1 (i : S1024x768.Idx) (q : dot_S1024x1536_S1536x768_S1024x768_1_0_0_1_n_n.contr.Idx) : (dot_S1024x1536_S1536x768_S1024x768_1_0_0_1_n_n.rhsIdx i q 1).val = (i 1).val := by
  unfold DotDims.rhsIdx
  rw [dif_neg (show ¬(1 : Fin S1536x768.rank) ∈ dot_S1024x1536_S1536x768_S1024x768_1_0_0_1_n_n.rhsBatch by decide), dif_pos (show (1 : Fin S1536x768.rank) ∈ dot_S1024x1536_S1536x768_S1024x768_1_0_0_1_n_n.rhsNonContracting by decide)]
  rfl

/-- The product into the zero accumulator, read at (n, h): the sum over the shared axis of extent 1536. -/
theorem mlpDot_apply {φ₁ φ₂ : FTy} (l : FVec Ideal S1024x1536 φ₁) (r : FVec Ideal S1536x768 φ₂) (n : Fin 1024) (h : Fin 768) :
    matmul dot_S1024x1536_S1536x768_S1024x768_1_0_0_1_n_n none l r (constant S1024x768 .f32 0x00000000#32) (ix2 n h)
      = ∑ k : Fin 1536, l (ix2 n k) * r (ix2 k h) := by
  show FloatOps.matmul dot_S1024x1536_S1536x768_S1024x768_1_0_0_1_n_n none l r (constant S1024x768 .f32 0x00000000#32) (ix2 n h) = _
  rw [Ideal.matmul_constant_zero_apply, ← Equiv.sum_comp (contrEquiv1 dot_S1024x1536_S1536x768_S1024x768_1_0_0_1_n_n 1536 rfl rfl).symm]
  refine Finset.sum_congr rfl fun k _ => ?_
  have hk := contrEquiv1_symm_val dot_S1024x1536_S1536x768_S1024x768_1_0_0_1_n_n 1536 rfl rfl k
  have el : dot_S1024x1536_S1536x768_S1024x768_1_0_0_1_n_n.lhsIdx (ix2 n h) ((contrEquiv1 dot_S1024x1536_S1536x768_S1024x768_1_0_0_1_n_n 1536 rfl rfl).symm k) = ix2 n k := funext fun a => Fin.ext (by
    match a with
    | ⟨0, _⟩ => exact mlpDot_lhs_0 _ _
    | ⟨1, _⟩ => exact (mlpDot_lhs_1 _ _).trans hk)
  have er : dot_S1024x1536_S1536x768_S1024x768_1_0_0_1_n_n.rhsIdx (ix2 n h) ((contrEquiv1 dot_S1024x1536_S1536x768_S1024x768_1_0_0_1_n_n 1536 rfl rfl).symm k) = ix2 k h := funext fun a => Fin.ext (by
    match a with
    | ⟨0, _⟩ => exact (mlpDot_rhs_0 _ _).trans hk
    | ⟨1, _⟩ => exact mlpDot_rhs_1 _ _)
  rw [el, er]

/-! ## A selected row -/

/-- The indicator matrix of a vector of index words. -/
def indicator (words : IVec S1024 32) : FVec Ideal S1024x512 .bf16 :=
  truncf .bf16 (sitofp (F := Ideal) .f32 (extui 32 (cmpi .eq (iota .tc S1024x512 32 [1] iota_S1024x512_d1_w32)
      (broadcastTo S1024x512 (shapeCast S1024x1 words shapeCasts_S1024_S1024x1) broadcasts_S1024x1_S1024x512)) natLt_1_32))
    bitsLt_bf16_f32

/-- Row n of the indicator matrix times the table is the table's row at the n-th word, when that word is a row number:
    every other column of the indicator row is 0 and contributes nothing, whatever the table holds there. -/
theorem selected_apply (words : IVec S1024 32) (tab : FVec Ideal S512x768 .f32) (n : Fin 1024) (h : Fin 768)
    (hw : (words (ix1 n)).toNat < 512) :
    matmul dot_S1024x512_S512x768_S1024x768_1_0_0_1_n_n none (indicator words) (truncf .bf16 tab bitsLt_bf16_f32 : FVec Ideal S512x768 .bf16)
        (constant S1024x768 .f32 0x00000000#32) (ix2 n h)
      = tab (ix2 ⟨(words (ix1 n)).toNat, hw⟩ h) := by
  rw [selDot_apply]
  refine SpanLogit.sum_indicator_mul ⟨(words (ix1 n)).toNat, hw⟩ (fun s => indicator words (ix2 n s))
    (fun s => (truncf .bf16 tab bitsLt_bf16_f32 : FVec Ideal S512x768 .bf16) (ix2 s h)) ?_ ?_
  · show indicator words (ix2 n ⟨(words (ix1 n)).toNat, hw⟩) = 1
    unfold indicator
    rw [indicator_apply, if_pos]
    exact BitVec.eq_of_toNat_eq (by rw [BitVec.toNat_ofNat]; exact Nat.mod_eq_of_lt (words (ix1 n)).isLt)
  · intro s hs
    show indicator words (ix2 n s) = 0
    unfold indicator
    rw [indicator_apply, if_neg]
    intro e
    apply hs
    apply Fin.ext
    show s.val = (words (ix1 n)).toNat
    rw [← e, BitVec.toNat_ofNat]
    exact (Nat.mod_eq_of_lt (by have := s.isLt; omega)).symm

/-! ## Small layout reads -/

/-- A [1, 1, a] array viewed as a vector of a reads, at i, the operand at (0, 0, i). -/
theorem shapeCast_11a_a_apply {α : Type} {a : ℕ} (x : (⟨3, ![1, 1, a]⟩ : Shape).Idx → α)
    (h : (⟨3, ![1, 1, a]⟩ : Shape).ShapeCasts ⟨1, ![a]⟩) (i : Fin a) :
    shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    omega)

/-- A vector of a viewed as a [1, 1, a] array reads, at (0, 0, i), the operand at i. -/
theorem shapeCast_a_11a_apply {α : Type} {a : ℕ} (x : (⟨1, ![a]⟩ : Shape).Idx → α)
    (h : (⟨1, ![a]⟩ : Shape).ShapeCasts ⟨3, ![1, 1, a]⟩) (i : Fin a) :
    shapeCast ⟨3, ![1, 1, a]⟩ x h (ix3 (0 : Fin 1) (0 : Fin 1) i) = x (ix1 i) :=
  shapeCast_apply x h _ _ (by
    rw [Shape.rowMajor_val_three, Shape.rowMajor_val_one]
    show i.val = (0 * 1 + 0) * a + i.val
    omega)

/-- The one column of an [a, 1] matrix as a vector. -/
theorem shapeCast_a1_a_apply {α : Type} {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- A vector of 768 laid along the rows of a [1024, 768] value. -/
theorem alongRows_apply {α : Type} (v : S768.Idx → α) (n : Fin 1024) (h : Fin 768) :
    broadcastTo S1024x768 (shapeCast S1x768 v shapeCasts_S768_S1x768) broadcasts_S1x768_S1024x768 (ix2 n h) = v (ix1 h) :=
  (broadcastTo_1b_ab_apply _ _ n h).trans (shapeCast_a_1a_apply v _ (0 : Fin 1) h)

/-! ## The sum over the hidden units -/

/-- The lane sum of a [1024, 768] value from the zero accumulator, read at n: the sum of row n. -/
theorem laneSum_apply (src : FVec Ideal S1024x768 .f32) (n : Fin 1024) :
    multiReduction .add [1] S1024 src 0x00000000#32 reduces_S1024x768_S1024 (.inl rfl) rfl (ix1 n)
      = ∑ k : Fin 768, src (ix2 n k) := by
  refine (Ideal.multiReduction_add_single src 0x00000000#32 reduces_S1024x768_S1024 (.inl rfl) rfl (ix1 n)).trans ?_
  refine Finset.sum_congr rfl fun k _ => congrArg src (funext fun a => Fin.ext ?_)
  match a with
  | ⟨0, _⟩ => rw [Shape.Reduces.lift_val]; simp [Shape.Reduces.liftVal]
  | ⟨1, _⟩ => rw [Shape.Reduces.lift_val]; simp [Shape.Reduces.liftVal]

/-! ## The joined rows -/

/-- Two [1024, 768] values joined along the second axis, read at (n, d): the first at d for d < 768, else the second
    at d - 768. -/
theorem joined_apply (l r : FVec Ideal S1024x768 .f32) (n : Fin 1024) (d : Fin 1536) :
    concatenate S1024x1536 1 [⟨S1024x768, l⟩, ⟨S1024x768, r⟩] concatenates_S1024x768_S1024x768_S1024x1536_d1 (ix2 n d)
      = if hd : d.val < 768 then l (ix2 n ⟨d.val, hd⟩) else r (ix2 n ⟨d.val - 768, by have := d.isLt; omega⟩) := by
  split
  · next hd =>
    exact concatenate_pair_apply_left 1 l r _ (ix2 n d) rfl (ix2 n ⟨d.val, hd⟩) (fun b => by
      match b with
      | ⟨0, _⟩ => rfl
      | ⟨1, _⟩ => rfl)
  · next hd =>
    exact concatenate_pair_apply_right 1 l r _ (ix2 n d) rfl rfl (ix2 n ⟨d.val - 768, by have := d.isLt; omega⟩) (fun b hb => by
      match b with
      | ⟨0, _⟩ => rfl
      | ⟨1, _⟩ => exact absurd rfl hb) (by
        show d.val - 768 + 768 = d.val
        omega)

/-! ## The body's value at an entry -/

/-- A selected row read off the blocks as the body loads them: row n of the indicator of the block's words times the
    block's table is the table's row at the n-th word. -/
theorem selected_block_apply (v0 : FVec Ideal S1x512x768 .f32) (v2 : IVec S1x1x1024 32) (n : Fin 1024) (h : Fin 768)
    (h2 : (v2 (ix3 (0 : Fin 1) (0 : Fin 1) n)).toNat < 512) :
    matmul dot_S1024x512_S512x768_S1024x768_1_0_0_1_n_n none
        (truncf .bf16 (sitofp (F := Ideal) .f32 (extui 32 (cmpi .eq (iota .tc S1024x512 32 [1] iota_S1024x512_d1_w32)
          (broadcastTo S1024x512 (shapeCast S1024x1 (shapeCast S1024 v2 shapeCasts_S1x1x1024_S1024) shapeCasts_S1024_S1024x1)
            broadcasts_S1024x1_S1024x512)) natLt_1_32)) bitsLt_bf16_f32 : FVec Ideal S1024x512 .bf16)
        (truncf .bf16 (shapeCast S512x768 v0 shapeCasts_S1x512x768_S512x768) bitsLt_bf16_f32 : FVec Ideal S512x768 .bf16)
        (constant S1024x768 .f32 0x00000000#32) (ix2 n h)
      = v0 (ix3 (0 : Fin 1) ⟨(v2 (ix3 (0 : Fin 1) (0 : Fin 1) n)).toNat, h2⟩ h) := by
  have e : shapeCast S1024 v2 shapeCasts_S1x1x1024_S1024 (ix1 n) = v2 (ix3 (0 : Fin 1) (0 : Fin 1) n) :=
    shapeCast_11a_a_apply v2 _ n
  have hw : ((shapeCast S1024 v2 shapeCasts_S1x1x1024_S1024 : IVec S1024 32) (ix1 n)).toNat < 512 := by rw [e]; exact h2
  refine (selected_apply (shapeCast S1024 v2 shapeCasts_S1x1x1024_S1024) (shapeCast S512x768 v0 shapeCasts_S1x512x768_S512x768) n h hw).trans ?_
  rw [shapeCast_1ab_ab_apply]
  exact congrArg v0 (funext fun a => by
    match a with
    | ⟨0, _⟩ => rfl
    | ⟨1, _⟩ => exact Fin.ext (congrArg BitVec.toNat e)
    | ⟨2, _⟩ => rfl)

/-- The body's lane sum at span n: the rectified affine image of the joined selected rows, weighted by the second
    weight's column and summed over the hidden units. -/
theorem pay2_apply (v0 : FVec Ideal S1x512x768 .f32) (v2 v4 : IVec S1x1x1024 32) (v23 : FVec Ideal S1536x768 .f32)
    (v27 : FVec Ideal S768 .f32) (v33 : FVec Ideal S768x1 .f32) (n : Fin 1024)
    (h2 : (v2 (ix3 (0 : Fin 1) (0 : Fin 1) n)).toNat < 512) (h4 : (v4 (ix3 (0 : Fin 1) (0 : Fin 1) n)).toNat < 512) :
    k0_pay2 (F := Ideal) v0 v2 v4 v23 v27 v33 (ix1 n)
      = ∑ h : Fin 768, max ((∑ d : Fin 1536,
            (if hd : d.val < 768 then v0 (ix3 (0 : Fin 1) ⟨(v2 (ix3 (0 : Fin 1) (0 : Fin 1) n)).toNat, h2⟩ ⟨d.val, hd⟩)
              else v0 (ix3 (0 : Fin 1) ⟨(v4 (ix3 (0 : Fin 1) (0 : Fin 1) n)).toNat, h4⟩ ⟨d.val - 768, by have := d.isLt; omega⟩))
            * v23 (ix2 d h)) + v27 (ix1 h)) 0 * v33 (ix2 h (0 : Fin 1)) := by
  unfold k0_pay2
  dsimp only
  refine (laneSum_apply _ n).trans ?_
  refine Finset.sum_congr rfl fun h _ => ?_
  rw [mulf_apply, maximumf_apply, addf_apply, broadcast_apply, alongRows_apply, alongRows_apply, mlpDot_apply]
  rw [shapeCast_a1_a_apply, Ideal.ofBits_def, Ideal.ofBits_zero_f32]
  refine congrArg (fun s => max (s + v27 (ix1 h)) 0 * v33 (ix2 h (0 : Fin 1))) (Finset.sum_congr rfl fun d _ => ?_)
  rw [truncf_apply, truncf_apply, joined_apply]
  split
  · next hd => rw [selected_block_apply v0 v2 n ⟨d.val, hd⟩ h2]
  · next hd => rw [selected_block_apply v0 v4 n ⟨d.val - 768, by have := d.isLt; omega⟩ h4]

/-- The stored value at span n: the lane sum there plus the second bias. -/
theorem pay1_apply (v38 : FVec Ideal S1024 .f32) (v39 : FVec Ideal S1 .f32) (n : Fin 1024) :
    k0_pay1 (F := Ideal) v38 v39 (ix3 (0 : Fin 1) (0 : Fin 1) n) = v38 (ix1 n) + v39 (ix1 (0 : Fin 1)) := by
  unfold k0_pay1
  rw [shapeCast_a_11a_apply, addf_apply, broadcast_apply]
  unfold extractAt
  exact congrArg (fun i => v38 (ix1 n) + v39 i) (funext fun a => by
    match a with
    | ⟨0, _⟩ => rfl)

/-- The value the body stores at span n, from the blocks it loads, when the two index words there are row numbers. -/
theorem entry_apply (x0 : FVec Ideal S1x512x768 .f32) (x1 x2 : IVec S1x1x1024 32) (x3 : FVec Ideal S1536x768 .f32)
    (x4 : FVec Ideal S768 .f32) (x5 : FVec Ideal S768x1 .f32) (x6 : FVec Ideal S1 .f32) (n : Fin 1024)
    (h1 : (x1 (ix3 (0 : Fin 1) (0 : Fin 1) n)).toNat < 512) (h2 : (x2 (ix3 (0 : Fin 1) (0 : Fin 1) n)).toNat < 512) :
    k0_pay1 (F := Ideal) (k0_pay2 (F := Ideal) x0 x1 x2 x3 x4 x5) x6 (ix3 (0 : Fin 1) (0 : Fin 1) n)
      = (∑ h : Fin 768, max ((∑ d : Fin 1536,
            (if hd : d.val < 768 then x0 (ix3 (0 : Fin 1) ⟨(x1 (ix3 (0 : Fin 1) (0 : Fin 1) n)).toNat, h1⟩ ⟨d.val, hd⟩)
              else x0 (ix3 (0 : Fin 1) ⟨(x2 (ix3 (0 : Fin 1) (0 : Fin 1) n)).toNat, h2⟩ ⟨d.val - 768, by have := d.isLt; omega⟩))
            * x3 (ix2 d h)) + x4 (ix1 h)) 0 * x5 (ix2 h (0 : Fin 1))) + x6 (ix1 (0 : Fin 1)) := by
  rw [pay1_apply, pay2_apply x0 x1 x2 x3 x4 x5 n h1 h2]

/-- The same value as the specification's logit of batch b, when the loaded blocks are batch b's slab and index rows
    and the whole weight arrays, and every index word of the input lies in [0, 512). -/
theorem entry_eq_logit (lh : SpanLogit.Slh.Idx → EReal) (W1 : SpanLogit.SW1.Idx → EReal) (b1 : SpanLogit.Sb1.Idx → EReal)
    (W2 : SpanLogit.SW2.Idx → EReal) (b2 : SpanLogit.Sb2.Idx → EReal) (sp : SpanLogit.Ssp.Idx → BitVec 32)
    (b : Fin 32) (n : Fin 1024)
    (x0 : FVec Ideal S1x512x768 .f32) (x1 x2 : IVec S1x1x1024 32) (x3 : FVec Ideal S1536x768 .f32)
    (x4 : FVec Ideal S768 .f32) (x5 : FVec Ideal S768x1 .f32) (x6 : FVec Ideal S1 .f32)
    (e0 : ∀ (s : Fin 512) (h : Fin 768), x0 (ix3 (0 : Fin 1) s h) = lh (ix3 b s h))
    (e1 : x1 (ix3 (0 : Fin 1) (0 : Fin 1) n) = sp (ix3 b n (0 : Fin 2)))
    (e2 : x2 (ix3 (0 : Fin 1) (0 : Fin 1) n) = sp (ix3 b n (1 : Fin 2)))
    (e3 : ∀ (d : Fin 1536) (h : Fin 768), x3 (ix2 d h) = W1 (ix2 d h))
    (e4 : ∀ h : Fin 768, x4 (ix1 h) = b1 (ix1 h))
    (e5 : ∀ h : Fin 768, x5 (ix2 h (0 : Fin 1)) = W2 (ix2 h (0 : Fin 1)))
    (e6 : x6 (ix1 (0 : Fin 1)) = b2 (ix1 (0 : Fin 1)))
    (hr : ∀ i, 0 ≤ (sp i).toInt ∧ (sp i).toInt < 512) :
    k0_pay1 (F := Ideal) (k0_pay2 (F := Ideal) x0 x1 x2 x3 x4 x5) x6 (ix3 (0 : Fin 1) (0 : Fin 1) n)
      = SpanLogit.logit lh W1 b1 W2 b2 sp b n := by
  have r1 := SpanLogit.row_val_of_range (hr (ix3 b n (0 : Fin 2))).1 (hr (ix3 b n (0 : Fin 2))).2
  have r2 := SpanLogit.row_val_of_range (hr (ix3 b n (1 : Fin 2))).1 (hr (ix3 b n (1 : Fin 2))).2
  have h1 : (x1 (ix3 (0 : Fin 1) (0 : Fin 1) n)).toNat < 512 := by
    rw [e1, ← r1]; exact (SpanLogit.row _).isLt
  have h2 : (x2 (ix3 (0 : Fin 1) (0 : Fin 1) n)).toNat < 512 := by
    rw [e2, ← r2]; exact (SpanLogit.row _).isLt
  rw [entry_apply x0 x1 x2 x3 x4 x5 x6 n h1 h2, e6]
  unfold SpanLogit.logit
  refine congrArg (· + b2 (ix1 (0 : Fin 1))) (Finset.sum_congr rfl fun h _ => ?_)
  rw [e4 h, e5 h]
  refine congrArg (fun s => max (s + b1 (ix1 h)) 0 * W2 (ix2 h (0 : Fin 1))) (Finset.sum_congr rfl fun d _ => ?_)
  rw [e3 d h]
  refine congrArg (· * W1 (ix2 d h)) ?_
  unfold SpanLogit.rep
  split
  · next hd =>
    rw [e0]
    exact congrArg lh (funext fun a => by
      match a with
      | ⟨0, _⟩ => rfl
      | ⟨1, _⟩ => exact Fin.ext (by show (x1 (ix3 (0 : Fin 1) (0 : Fin 1) n)).toNat = (SpanLogit.row _).val; rw [r1, e1])
      | ⟨2, _⟩ => rfl)
  · next hd =>
    rw [e0]
    exact congrArg lh (funext fun a => by
      match a with
      | ⟨0, _⟩ => rfl
      | ⟨1, _⟩ => exact Fin.ext (by show (x2 (ix3 (0 : Fin 1) (0 : Fin 1) n)).toNat = (SpanLogit.row _).val; rw [r2, e2])
      | ⟨2, _⟩ => rfl)

end Cert.KernelEntry

end
-- ==== Proof.KernelValue.lean ====
/-
  From the body's value at one span to the kernel's result array.

  The grid has one point per batch. At point t the output window's block is row t of the [32, 1, 1024] result
  buffer, the hidden-state window's block is slab t of the input, the two index windows' blocks are row t of
  the start and end index arrays (which the program builds before the launch by slicing the index input on its
  last axis and laying the result out as [32, 1, 1024]), and the four weight windows' blocks are the whole
  weight arrays. So what point t writes back is the specification's logits of batch t, the 32 blocks tile the
  buffer, and the buffer ends as the logits of every batch; the reshape after the launch drops the unit axis.
-/
import proofs.«409077_j42752104465048_3_alg».proof.Proof.Gen.KernelIdeal.Frame
import proofs.«409077_j42752104465048_3_alg».proof.Proof.KernelEntry
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelValue

open Cert.KernelIdeal Cert.KernelIdeal.Gen Idealize.ShloMosaic Idealize.ShloMosaic.TcCoe Idealize.ShloMosaic.ValueIdx
open Idealize.SL.Sem Idealize.ShloMosaic.StableHlo

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- The batch a grid point works on. -/
abbrev batch (t : Fin cfg0.N) : Fin 32 := Fin.cast N_0 t

/-! ## The index arrays as the launch finds them -/

/-- The start-index array: the index input sliced at position 0 of its last axis, laid out as [32, 1, 1024]. -/
theorem starts_eq (c : Dev nD) : (V m c main_v4 : S32x1x1024.Idx → BitVec 32)
    = broadcastInDim S32x1x1024 ![0, 2] bcast_S32x1024_S32x1x1024_0_2 (shapeCast S32x1024 (extractStridedSlice S32x1024x1 ![0, 0, 0]
        (m ((c : Thread nD τ).loc main_arg5)) slices_S32x1024x2_S32x1024x1_0_0_0) shapeCasts_S32x1024x1_S32x1024) := by
  show StableHlo.after hostOps0 (fun b => m (c, b)) (Proc.devRef .tc main_v4) = _
  after_results
  rfl

/-- The end-index array: the same at position 1. -/
theorem ends_eq (c : Dev nD) : (V m c main_v5 : S32x1x1024.Idx → BitVec 32)
    = broadcastInDim S32x1x1024 ![0, 2] bcast_S32x1024_S32x1x1024_0_2 (shapeCast S32x1024 (extractStridedSlice S32x1024x1 ![0, 0, 1]
        (m ((c : Thread nD τ).loc main_arg5)) slices_S32x1024x2_S32x1024x1_0_0_1) shapeCasts_S32x1024x1_S32x1024) := by
  show StableHlo.after hostOps0 (fun b => m (c, b)) (Proc.devRef .tc main_v5) = _
  after_results
  rfl

/-- Entry (b, 0, n) of the [32, 1, 1024] layout of position e of the index input's last axis is the input's (b, n, e). -/
theorem laidOut_apply (sp : S32x1024x2.Idx → BitVec 32) (e : Fin 2) (off : Fin 3 → Nat) (hoff : off = ![0, 0, e.val])
    (hs : S32x1024x2.Slices off S32x1024x1) (b : Fin 32) (n : Fin 1024) :
    broadcastInDim S32x1x1024 ![0, 2] bcast_S32x1024_S32x1x1024_0_2 (shapeCast S32x1024 (extractStridedSlice S32x1024x1 off sp hs)
        shapeCasts_S32x1024x1_S32x1024) (ix3 b (0 : Fin 1) n) = sp (ix3 b n e) := by
  subst hoff
  rw [broadcastInDim_apply _ _ _ (ix3 b (0 : Fin 1) n) (ix2 b n) (fun a => by
    match a with
    | ⟨0, _⟩ => rfl
    | ⟨1, _⟩ => rfl)]
  rw [shapeCast_apply _ _ (ix2 b n) (ix3 b n (0 : Fin 1)) (by
    rw [Shape.rowMajor_val_three, Shape.rowMajor_val_two]
    show (b.val * 1024 + n.val) * 1 + 0 = b.val * 1024 + n.val
    omega)]
  exact extractStridedSlice_apply _ _ _ (ix3 b n (0 : Fin 1)) (ix3 b n e) (fun a => by
    match a with
    | ⟨0, _⟩ => show b.val = 0 + b.val; omega
    | ⟨1, _⟩ => show n.val = 0 + n.val; omega
    | ⟨2, _⟩ => show e.val = e.val + 0; omega)

/-! ## The windows' blocks -/

/-- The printed index maps, decided over the grid: the slab, the two index rows and the output row move with the grid
    point; the weight windows stay at the origin. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 3) = t.val ∧ win0_7.index t (1 : Fin 3) = 0 ∧ win0_7.index t (2 : Fin 3) = 0 :=
  (by decide +kernel : ∀ t : Fin grid0.N, _)

/-- The hidden-state block at point t is slab t of the input. -/
theorem slab_apply (c : Dev nD) (t : Fin cfg0.N) (s : Fin 512) (h : Fin 768) :
    (iblk m c 0 t : S1x512x768.Idx → EReal) (ix3 (0 : Fin 1) s h) = m ((c : Thread nD τ).loc main_arg0) (ix3 (batch t) s h) := by
  obtain ⟨e0, e1, e2, -⟩ := idx_facts t
  show V m c main_arg0 (((cfg0.win 0).blk t).view.emb (ix3 (0 : Fin 1) s h)) = _
  rw [V_main_arg0]
  refine congrArg _ (funext fun a => Fin.ext ?_)
  match a with
  | ⟨0, _⟩ => show win0_0.index t (0 : Fin 3) * 1 + 1 * 0 = t.val; omega
  | ⟨1, _⟩ => show win0_0.index t (1 : Fin 3) * 512 + 1 * s.val = s.val; omega
  | ⟨2, _⟩ => show win0_0.index t (2 : Fin 3) * 768 + 1 * h.val = h.val; omega

/-- The start-index block at point t is row t of the index input at position 0. -/
theorem startRow_apply (c : Dev nD) (t : Fin cfg0.N) (n : Fin 1024) :
    (iblk m c 1 t : S1x1x1024.Idx → BitVec 32) (ix3 (0 : Fin 1) (0 : Fin 1) n)
      = m ((c : Thread nD τ).loc main_arg5) (ix3 (batch t) n (0 : Fin 2)) := by
  obtain ⟨-, -, -, e0, e1, e2, -⟩ := idx_facts t
  show (V m c main_v4 : S32x1x1024.Idx → BitVec 32) (((cfg0.win 1).blk t).view.emb (ix3 (0 : Fin 1) (0 : Fin 1) n)) = _
  have he : ((cfg0.win 1).blk t).view.emb (ix3 (0 : Fin 1) (0 : Fin 1) n) = ix3 (batch t) (0 : Fin 1) n :=
    funext fun a => Fin.ext (by
      match a with
      | ⟨0, _⟩ => show win0_1.index t (0 : Fin 3) * 1 + 1 * 0 = t.val; omega
      | ⟨1, _⟩ => show win0_1.index t (1 : Fin 3) * 1 + 1 * 0 = 0; omega
      | ⟨2, _⟩ => show win0_1.index t (2 : Fin 3) * 1024 + 1 * n.val = n.val; omega)
  rw [he, starts_eq]
  exact laidOut_apply _ (0 : Fin 2) _ rfl _ (batch t) n

/-- The end-index block at point t is row t of the index input at position 1. -/
theorem endRow_apply (c : Dev nD) (t : Fin cfg0.N) (n : Fin 1024) :
    (iblk m c 2 t : S1x1x1024.Idx → BitVec 32) (ix3 (0 : Fin 1) (0 : Fin 1) n)
      = m ((c : Thread nD τ).loc main_arg5) (ix3 (batch t) n (1 : Fin 2)) := by
  obtain ⟨-, -, -, -, -, -, e0, e1, e2, -⟩ := idx_facts t
  show (V m c main_v5 : S32x1x1024.Idx → BitVec 32) (((cfg0.win 2).blk t).view.emb (ix3 (0 : Fin 1) (0 : Fin 1) n)) = _
  have he : ((cfg0.win 2).blk t).view.emb (ix3 (0 : Fin 1) (0 : Fin 1) n) = ix3 (batch t) (0 : Fin 1) n :=
    funext fun a => Fin.ext (by
      match a with
      | ⟨0, _⟩ => show win0_2.index t (0 : Fin 3) * 1 + 1 * 0 = t.val; omega
      | ⟨1, _⟩ => show win0_2.index t (1 : Fin 3) * 1 + 1 * 0 = 0; omega
      | ⟨2, _⟩ => show win0_2.index t (2 : Fin 3) * 1024 + 1 * n.val = n.val; omega)
  rw [he, ends_eq]
  exact laidOut_apply _ (1 : Fin 2) _ rfl _ (batch t) n

/-- The first weight window's block is the whole first weight matrix. -/
theorem w1_apply (c : Dev nD) (t : Fin cfg0.N) (d : Fin 1536) (h : Fin 768) :
    (iblk m c 3 t : S1536x768.Idx → EReal) (ix2 d h) = m ((c : Thread nD τ).loc main_arg1) (ix2 d h) := by
  obtain ⟨-, -, -, -, -, -, -, -, -, e0, e1, -⟩ := idx_facts t
  show V m c main_arg1 (((cfg0.win 3).blk t).view.emb (ix2 d h)) = _
  rw [V_main_arg1]
  refine congrArg _ (funext fun a => Fin.ext ?_)
  match a with
  | ⟨0, _⟩ => show win0_3.index t (0 : Fin 2) * 1536 + 1 * d.val = d.val; omega
  | ⟨1, _⟩ => show win0_3.index t (1 : Fin 2) * 768 + 1 * h.val = h.val; omega

/-- The first bias window's block is the whole first bias. -/
theorem b1_apply (c : Dev nD) (t : Fin cfg0.N) (h : Fin 768) :
    (iblk m c 4 t : S768.Idx → EReal) (ix1 h) = m ((c : Thread nD τ).loc main_arg2) (ix1 h) := by
  obtain ⟨-, -, -, -, -, -, -, -, -, -, -, e0, -⟩ := idx_facts t
  show V m c main_arg2 (((cfg0.win 4).blk t).view.emb (ix1 h)) = _
  rw [V_main_arg2]
  refine congrArg _ (funext fun a => Fin.ext ?_)
  match a with
  | ⟨0, _⟩ => show win0_4.index t (0 : Fin 1) * 768 + 1 * h.val = h.val; omega

/-- The second weight window's block is the whole second weight matrix. -/
theorem w2_apply (c : Dev nD) (t : Fin cfg0.N) (h : Fin 768) :
    (iblk m c 5 t : S768x1.Idx → EReal) (ix2 h (0 : Fin 1)) = m ((c : Thread nD τ).loc main_arg3) (ix2 h (0 : Fin 1)) := by
  obtain ⟨-, -, -, -, -, -, -, -, -, -, -, -, e0, e1, -⟩ := idx_facts t
  show V m c main_arg3 (((cfg0.win 5).blk t).view.emb (ix2 h (0 : Fin 1))) = _
  rw [V_main_arg3]
  refine congrArg _ (funext fun a => Fin.ext ?_)
  match a with
  | ⟨0, _⟩ => show win0_5.index t (0 : Fin 2) * 768 + 1 * h.val = h.val; omega
  | ⟨1, _⟩ => show win0_5.index t (1 : Fin 2) * 1 + 1 * 0 = 0; omega

/-- The second bias window's block is the whole second bias. -/
theorem b2_apply (c : Dev nD) (t : Fin cfg0.N) :
    (iblk m c 6 t : S1.Idx → EReal) (ix1 (0 : Fin 1)) = m ((c : Thread nD τ).loc main_arg4) (ix1 (0 : Fin 1)) := by
  obtain ⟨-, -, -, -, -, -, -, -, -, -, -, -, -, -, e0, -⟩ := idx_facts t
  show V m c main_arg4 (((cfg0.win 6).blk t).view.emb (ix1 (0 : Fin 1))) = _
  rw [V_main_arg4]
  refine congrArg _ (funext fun a => Fin.ext ?_)
  match a with
  | ⟨0, _⟩ => show win0_6.index t (0 : Fin 1) * 1 + 1 * 0 = 0; omega

/-! ## What a point writes back -/

/-- The result buffer the launch ends with: the logits, laid out [32, 1, 1024]. -/
def Gk (c : Dev nD) : S32x1x1024.Idx → EReal := fun i =>
  SpanLogit.logit (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (i 0) (i 2)

/-- WHAT POINT t WRITES BACK is row t of the logits, when every index word of the input lies in [0, 512). -/
theorem flushed_eq (hr : ∀ (c : Dev nD) i, 0 ≤ ((m ((c : Thread nD τ).loc main_arg5)) i).toInt ∧ ((m ((c : Thread nD τ).loc main_arg5)) i).toInt < 512) (c : Dev nD) (t : Fin cfg0.N) :
    (dats m 0 c).flushed 7 t = ((cfg0.win 7).blk t).view.read (Elt Ideal) (Gk m c) := by
  obtain ⟨-, -, -, -, -, -, -, -, -, -, -, -, -, -, -, e0, e1, e2⟩ := idx_facts t
  show (cfg0.win 7).cut (grid0.coords t) ((dats m 0 c).after 7 t) = _
  rw [after0_7]
  unfold out0_7
  rw [View.canon_unit_zero hz3]
  simp only [View.ld_unit_zero (S := S1x512x768) hz3, View.ld_unit_zero (S := S1x1x1024) hz3, View.ld_unit_zero (S := S1536x768) hz2,
    View.ld_unit_zero (S := S768) hz1, View.ld_unit_zero (S := S768x1) hz2, View.ld_unit_zero (S := S1) hz1]
  funext j
  have hj : j = (ix3 (0 : Fin 1) (0 : Fin 1) (j 2) : S1x1x1024.Idx) := funext fun a => Fin.ext (by
    match a with
    | ⟨0, _⟩ => exact Nat.lt_one_iff.mp (j 0).isLt
    | ⟨1, _⟩ => exact Nat.lt_one_iff.mp (j 1).isLt
    | ⟨2, _⟩ => rfl)
  have hemb : ((cfg0.win 7).blk t).view.emb j = ix3 (batch t) (0 : Fin 1) (j 2) := funext fun a => Fin.ext (by
    have h0 : (j 0).val = 0 := Nat.lt_one_iff.mp (j 0).isLt
    have h1 : (j 1).val = 0 := Nat.lt_one_iff.mp (j 1).isLt
    match a with
    | ⟨0, _⟩ => show win0_7.index t (0 : Fin 3) * 1 + 1 * (j 0).val = t.val; omega
    | ⟨1, _⟩ => show win0_7.index t (1 : Fin 3) * 1 + 1 * (j 1).val = 0; omega
    | ⟨2, _⟩ => show win0_7.index t (2 : Fin 3) * 1024 + 1 * (j 2).val = (j 2).val; omega)
  show k0_pay1 (F := Ideal) (k0_pay2 (F := Ideal) (iblk m c 0 t) (iblk m c 1 t) (iblk m c 2 t) (iblk m c 3 t) (iblk m c 4 t) (iblk m c 5 t))
      (iblk m c 6 t) j = Gk m c (((cfg0.win 7).blk t).view.emb j)
  rw [hemb]
  refine (congrArg (k0_pay1 (F := Ideal) (k0_pay2 (F := Ideal) (iblk m c 0 t) (iblk m c 1 t) (iblk m c 2 t) (iblk m c 3 t) (iblk m c 4 t) (iblk m c 5 t))
      (iblk m c 6 t)) hj).trans ?_
  exact KernelEntry.entry_eq_logit (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (batch t) (j 2)
    (iblk m c 0 t) (iblk m c 1 t) (iblk m c 2 t) (iblk m c 3 t) (iblk m c 4 t) (iblk m c 5 t) (iblk m c 6 t)
    (slab_apply m c t) (startRow_apply m c t (j 2)) (endRow_apply m c t (j 2)) (w1_apply m c t) (b1_apply m c t)
    (w2_apply m c t) (b2_apply m c t) (hr c)

/-! ## The 32 rows tile the buffer -/

/-- An index of the buffer is in point t's block iff each coordinate is in the block's range on its axis. -/
theorem mem_blk (t : Fin cfg0.N) (i : S32x1x1024.Idx) :
    i ∈ ((cfg0.win 7).blk t).view.set ↔ ∀ a : Fin 3, win0_7.index t a * S1x1x1024.size a ≤ (i a).val
      ∧ (i a).val < win0_7.index t a * S1x1x1024.size a + S1x1x1024.size a := by
  show i ∈ ((View.whole main_v6).slice (win0_7.rect t)).set ↔ _
  rw [View.set_slice_whole, Rect.mem_set_unit]
  exact Iff.rfl

/-- Every index of the buffer lies in the block of the point whose number is its batch coordinate. -/
theorem cover (i : S32x1x1024.Idx) : ∃ t : Fin cfg0.N, (cfg0.win 7).flush t = true ∧ i ∈ ((cfg0.win 7).blk t).view.set := by
  have hi0 : (i 0).val < 32 := (i 0).isLt
  have hi1 : (i 1).val < 1 := (i 1).isLt
  have hi2 : (i 2).val < 1024 := (i 2).isLt
  have ht : (Fin.cast N_0.symm (⟨(i 0).val, hi0⟩ : Fin 32) : Fin cfg0.N).val = (i 0).val := rfl
  obtain ⟨-, -, -, -, -, -, -, -, -, -, -, -, -, -, -, e0, e1, e2⟩ := idx_facts (Fin.cast N_0.symm (⟨(i 0).val, hi0⟩ : Fin 32))
  refine ⟨Fin.cast N_0.symm (⟨(i 0).val, hi0⟩ : Fin 32), flush0_7 _, ?_⟩
  rw [mem_blk]
  intro a
  match a with
  | ⟨0, _⟩ =>
    show win0_7.index _ (0 : Fin 3) * 1 ≤ (i 0).val ∧ (i 0).val < win0_7.index _ (0 : Fin 3) * 1 + 1
    omega
  | ⟨1, _⟩ =>
    show win0_7.index _ (1 : Fin 3) * 1 ≤ (i 1).val ∧ (i 1).val < win0_7.index _ (1 : Fin 3) * 1 + 1
    omega
  | ⟨2, _⟩ =>
    show win0_7.index _ (2 : Fin 3) * 1024 ≤ (i 2).val ∧ (i 2).val < win0_7.index _ (2 : Fin 3) * 1024 + 1024
    omega

/-- THE BUFFER after the launch holds the logits of every batch. -/
theorem final (hr : ∀ (c : Dev nD) i, 0 ≤ ((m ((c : Thread nD τ).loc main_arg5)) i).toInt ∧ ((m ((c : Thread nD τ).loc main_arg5)) i).toInt < 512) (c : Dev nD) :
    (dats m 0 c).arrAt 7 cfg0.N = Gk m c :=
  (dats m 0 c).arrAt_eq_of_cover 7 (Gk m c) (fun t _ => flushed_eq m hr c t) cover

/-! ## The reshape after the launch -/

/-- The program's result: the buffer with its unit axis dropped, the logits as [32, 1024]. -/
theorem tail_eq (hr : ∀ (c : Dev nD) i, 0 ≤ ((m ((c : Thread nD τ).loc main_arg5)) i).toInt ∧ ((m ((c : Thread nD τ).loc main_arg5)) i).toInt < 512) (c : Dev nD) :
    Pipeline.afterTail₀ cfgs (dats m) 0 (V0 m) [hostOps1] c main_v7
      = SpanLogit.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  unfold Pipeline.afterTail₀
  show StableHlo.after hostOps1 _ (Proc.devRef .tc main_v7) = _
  after_results
  have hw : Pipeline.withArrays (cfgs 0).spec c (V0 m c) (fun w => (dats m 0 c).arrAt w (cfgs 0).N) (Proc.devRef .tc main_v6)
      = Gk m c := (Pipeline.withArrays_arr spec0 launch0.win.arr_inj c _ _ 7).trans (final m hr c)
  show (fun i => shapeCast S32x1024 (Pipeline.withArrays (cfgs 0).spec c (V0 m c) (fun w => (dats m 0 c).arrAt w (cfgs 0).N)
      (Proc.devRef .tc main_v6)) shapeCasts_S32x1x1024_S32x1024 i) = _
  rw [hw]
  funext i
  obtain ⟨b, n, rfl⟩ : ∃ (b : Fin 32) (n : Fin 1024), i = ix2 b n := ⟨i 0, i 1, eq_ix2 i⟩
  rw [shapeCast_apply (Gk m c) shapeCasts_S32x1x1024_S32x1024 (ix2 b n) (ix3 b (0 : Fin 1) n) (by
    rw [Shape.rowMajor_val_three, Shape.rowMajor_val_two]
    show (b.val * 1 + 0) * 1024 + n.val = b.val * 1024 + n.val
    omega)]
  rfl

/-! ## The run, read -/

/-- Every weakly fair execution of the kernel's program ends with the logits in its result and its arguments unchanged,
    when every index word of the input lies in [0, 512). -/
theorem run (hr : ∀ (c : Dev nD) i, 0 ≤ ((m ((c : Thread nD τ).loc main_arg5)) i).toInt ∧ ((m ((c : Thread nD τ).loc main_arg5)) i).toInt < 512) :
    θ_run defs (onTc (τ := τ) (main (F := Ideal))) ⟨m, fun _ => 0, ρ⟩ fun r => ∀ c : Dev nD,
      r.2.mem ((c.tc : Thread nD τ).loc main_v7) = SpanLogit.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v7 (Pipeline.mem_restRefs_of main_v7 (by decide) (by decide))).trans (tail_eq m hr c),
      ((h c).1 0).trans (((dats m 0 c).arrAt_in 0 rfl _).trans ((A_eq m c 0).trans (V_main_arg0 m c))),
      ((h c).1 3).trans (((dats m 0 c).arrAt_in 3 rfl _).trans ((A_eq m c 3).trans (V_main_arg1 m c))),
      ((h c).1 4).trans (((dats m 0 c).arrAt_in 4 rfl _).trans ((A_eq m c 4).trans (V_main_arg2 m c))),
      ((h c).1 5).trans (((dats m 0 c).arrAt_in 5 rfl _).trans ((A_eq m c 5).trans (V_main_arg3 m c))),
      ((h c).1 6).trans (((dats m 0 c).arrAt_in 6 rfl _).trans ((A_eq m c 6).trans (V_main_arg4 m c))),
      ((h c).2 main_arg5 (Pipeline.mem_restRefs_of main_arg5 (by decide) (by decide))).trans (W_main_arg5 m (dats m) c)⟩)
    (run_main m ρ)

end Cert.KernelValue

end
-- ==== Proof.LibGatherRows3.lean ====
/-
  Two host operations read at an index, as a take along axis 1 of a rank-3 array lowers to them.

  A gather whose operand [B, S, H] is batched over its first axis with start indices [B, N, 1], collapsing the second
  axis and keeping the third whole, reads at (b, n, h) the operand's row that the index word at (b, n, 0) names, the
  word read signed and clamped into [0, S - 1]. And a reduction by "and" over a trailing axis of extent one, started
  from the bit 1, reads at (b, n) the operand's single entry there. Both are stated over variable extents.
-/
import Idealize.ShloMosaic.Lib.ValueIdx
import Idealize.ShloMosaic.PureOps.Reduce

namespace Cert.LibGatherRows3
open Idealize.ShloMosaic Idealize.ShloMosaic.ValueIdx

/-- The dimension numbers of a take along axis 1 of an operand `[B, S, H]` at start indices `[B, N, 1]`, batched over
    axis 0: offset axis 2, collapsed axis 1, operand batching axis 0, start-index batching axis 0, start index map
    `[1]`, index vector axis 2, slice sizes `[1, 1, H]`. -/
abbrev rows3Dims (B S H N : Nat)
    (wf : GatherDims.WF ⟨3, ![B, S, H]⟩ ⟨3, ![B, N, 1]⟩ ⟨3, ![B, N, H]⟩ [2] [1] [0] [1] [0] 2 ![1, 1, H]) :
    GatherDims ⟨3, ![B, S, H]⟩ ⟨3, ![B, N, 1]⟩ ⟨3, ![B, N, H]⟩ where
  offsetDims := [2]
  collapsedSliceDims := [1]
  operandBatchingDims := [0]
  startIndicesBatchingDims := [0]
  startIndexMap := [1]
  indexVectorDim := 2
  sliceSizes := ![1, 1, H]
  wf := wf

/-- THE GATHER READ AT `(b, n, h)`: the operand at batch `b`, column `h`, and the row the start index
    `idx[b, n, 0]` names, read signed and clamped into `[0, S - 1]`. -/
theorem gather_rows3_apply {α : Type} {B S H N w : Nat} (hS : 0 < S)
    (wf : GatherDims.WF ⟨3, ![B, S, H]⟩ ⟨3, ![B, N, 1]⟩ ⟨3, ![B, N, H]⟩ [2] [1] [0] [1] [0] 2 ![1, 1, H])
    (x : (⟨3, ![B, S, H]⟩ : Shape).Idx → α) (idx : IVec ⟨3, ![B, N, 1]⟩ w) (b : Fin B) (n : Fin N) (h : Fin H) :
    Host.gather (rows3Dims B S H N wf) x idx (ix3 b n h)
      = x (ix3 b ⟨min (idx (ix3 b n (0 : Fin 1))).toInt.toNat (S - 1), by omega⟩ h) := by
  unfold Host.gather
  congr 1
  funext a
  refine Fin.ext ?_
  match a with
  | ⟨0, _⟩ =>
    show (rows3Dims B S H N wf).start (ix3 b n h) idx 0 + (rows3Dims B S H N wf).batchCoord (ix3 b n h) 0
      + (rows3Dims B S H N wf).offCoord (ix3 b n h) 0 = _
    rw [GatherDims.start_batching _ _ _ _ (List.mem_singleton.mpr rfl),
      GatherDims.offCoord_eq_zero _ _ _ (fun hm => ((GatherDims.mem_sKept _ _).mp hm).2 (List.mem_singleton.mpr rfl))]
    simp only [Nat.zero_add, Nat.add_zero]
    unfold GatherDims.batchCoord
    rw [dif_pos (show (0 : Fin 3) ∈ (rows3Dims B S H N wf).operandBatchingDims from List.mem_singleton.mpr rfl)]
    rfl
  | ⟨1, _⟩ =>
    show (rows3Dims B S H N wf).start (ix3 b n h) idx 1 + (rows3Dims B S H N wf).batchCoord (ix3 b n h) 1
      + (rows3Dims B S H N wf).offCoord (ix3 b n h) 1 = _
    rw [GatherDims.batchCoord_eq_zero _ _ _
        (fun hm => absurd (List.mem_singleton.mp hm) (show (1 : Fin 3) ≠ 0 by decide)),
      GatherDims.offCoord_eq_zero _ _ _ (fun hm => ((GatherDims.mem_sKept _ _).mp hm).1 (List.mem_singleton.mpr rfl))]
    simp only [Nat.add_zero]
    unfold GatherDims.start
    rw [dif_pos (show (1 : Fin 3) ∈ (rows3Dims B S H N wf).startIndexMap from List.mem_singleton.mpr rfl)]
    have hsi : (rows3Dims B S H N wf).siIdx (ix3 b n h) ⟨List.idxOf (1 : Fin 3) (rows3Dims B S H N wf).startIndexMap,
        List.idxOf_lt_length_iff.2 (List.mem_singleton.mpr rfl)⟩ = ix3 b n (0 : Fin 1) := by
      funext c; refine Fin.ext ?_
      match c with
      | ⟨0, _⟩ => rfl
      | ⟨1, _⟩ => rfl
      | ⟨2, _⟩ => rfl
    rw [hsi]
    rfl
  | ⟨2, _⟩ =>
    show (rows3Dims B S H N wf).start (ix3 b n h) idx 2 + (rows3Dims B S H N wf).batchCoord (ix3 b n h) 2
      + (rows3Dims B S H N wf).offCoord (ix3 b n h) 2 = _
    rw [GatherDims.batchCoord_eq_zero _ _ _
        (fun hm => absurd (List.mem_singleton.mp hm) (show (2 : Fin 3) ≠ 0 by decide))]
    unfold GatherDims.start
    rw [dif_neg (show (2 : Fin 3) ∉ (rows3Dims B S H N wf).startIndexMap from
      fun hm => absurd (List.mem_singleton.mp hm) (show (2 : Fin 3) ≠ 1 by decide))]
    simp only [Nat.zero_add, Nat.add_zero]
    unfold GatherDims.offCoord
    rw [dif_pos (show (2 : Fin 3) ∈ (rows3Dims B S H N wf).sKept from (GatherDims.mem_sKept _ _).mpr
      ⟨fun hm => absurd (List.mem_singleton.mp hm) (show (2 : Fin 3) ≠ 1 by decide),
        fun hm => absurd (List.mem_singleton.mp hm) (show (2 : Fin 3) ≠ 0 by decide)⟩)]
    rfl

/-- An and-reduction over a trailing axis of extent one, from the initial bit 1, read at `(b, n)`: the operand's one
    entry there. -/
theorem reduce_andi_unit3_apply {B N : Nat} (x : IVec ⟨3, ![B, N, 1]⟩ 1) (init : IVec ⟨0, ![]⟩ 1)
    (hinit : init (fun a => a.elim0) = 1#1)
    (hr : (⟨3, ![B, N, 1]⟩ : Shape).ReducesTo [2] ⟨2, ![B, N]⟩) (hpos : 0 < (⟨0, ![]⟩ : Shape).numel)
    (b : Fin B) (n : Fin N) :
    Host.reduce IntOp.andi x init hr hpos (ix2 b n) = x (ix3 b n (0 : Fin 1)) := by
  rw [Host.reduce_eq_fold]
  -- the operand indices that drop to (b, n): the one index (b, n, 0)
  have hset : (Finset.univ.filter fun i => hr.drop i = ix2 b n) = {ix3 b n (0 : Fin 1)} := by
    ext i
    rw [Finset.mem_filter, Finset.mem_singleton]
    constructor
    · rintro ⟨-, hd⟩
      have h0 : (i 0).val = b.val := congrArg (fun j : (⟨2, ![B, N]⟩ : Shape).Idx => (j 0).val) hd
      have h1 : (i 1).val = n.val := congrArg (fun j : (⟨2, ![B, N]⟩ : Shape).Idx => (j 1).val) hd
      funext c
      refine Fin.ext ?_
      match c with
      | ⟨0, _⟩ => exact h0
      | ⟨1, _⟩ => exact h1
      | ⟨2, _⟩ => exact Nat.lt_one_iff.mp (i 2).isLt
    · rintro rfl
      refine ⟨Finset.mem_univ _, ?_⟩
      funext c
      refine Fin.ext ?_
      match c with
      | ⟨0, _⟩ => rfl
      | ⟨1, _⟩ => rfl
  rw [hset, Finset.fold_singleton]
  have hfirst : Shape.Idx.first hpos = fun a => a.elim0 := funext fun a => a.elim0
  rw [hfirst, hinit]
  generalize x (ix3 b n (0 : Fin 1)) = v
  revert v
  decide

end Cert.LibGatherRows3
-- ==== Proof.RefValue.lean ====
/-
  The reference program's result, read index by index, is the specification's logits.

  The reference takes the start and end rows with a take along the sequence axis. That take, as the program spells it,
  first adds 512 to a negative index, then reads the row the adjusted index names, clamped into [0, 511], and keeps the
  row where the adjusted index lies in [0, 511] (otherwise it fills the row with a fixed float word). On an index word
  already in [0, 512) nothing of this binds: the adjustment leaves the word alone, the range test passes, and the row read
  is the word's own. The two taken rows are joined into 1536 entries, and the rest is the classifier as the specification
  writes it: a sum over the 1536 entries against the first weight matrix, the first bias, the maximum with zero, a sum
  over the 768 hidden units against the second weight's column, the second bias, and a reshape that drops a unit axis.
-/
import proofs.«409077_j42752104465048_3_alg».proof.Proof.RefRead
import proofs.«409077_j42752104465048_3_alg».proof.Proof.SpanLogit
import proofs.«409077_j42752104465048_3_alg».proof.Proof.LibGatherRows3
import Idealize.ShloMosaic.Lib.Pipeline.Value
import Idealize.ShloMosaic.Lib.ValueIdx
import Idealize.ShloMosaic.Lib.ValueLayout
import Idealize.ShloMosaic.Lib.Affine
import Idealize.ShloMosaic.PureOps.Ideal.Laws

noncomputable section

open scoped BigOperators

namespace Cert.RefValue

open Cert.ReferenceIdeal Cert.ReferenceIdeal.Gen Cert.ReferenceIdeal.ReadP Idealize.ShloMosaic Idealize.ShloMosaic.ValueIdx

/-! ## The take along the sequence axis -/

/-- The take as the program spells it, a function of the operand and of a [32, 1024, 1] array of index words. -/
def takeRows (x : FVec Ideal S32x512x768 .f32) (idx : IVec S32x1024x1 32) : FVec Ideal S32x1024x768 .f32 :=
  select
    (broadcastInDim S32x1024x768 ![0, 1] bcast_S32x1024_S32x1024x768_0_1
      (Host.reduce IntOp.andi
        (andi
          (cmpi .sge
            (select (cmpi .slt idx (broadcastInDim S32x1024x1 ![] bcast_S_S32x1024x1 (constantI S_ 32 0#32)))
              (addi idx (broadcastInDim S32x1024x1 ![] bcast_S_S32x1024x1 (constantI S_ 32 512#32))) idx)
            (broadcastInDim S32x1024x1 ![] bcast_S_S32x1024x1 (constantI S_ 32 0#32)))
          (cmpi .sle
            (select (cmpi .slt idx (broadcastInDim S32x1024x1 ![] bcast_S_S32x1024x1 (constantI S_ 32 0#32)))
              (addi idx (broadcastInDim S32x1024x1 ![] bcast_S_S32x1024x1 (constantI S_ 32 512#32))) idx)
            (broadcastInDim S32x1024x1 ![0, 1, 2] bcast_S1x1x1_S32x1024x1_0_1_2
              (broadcastInDim S1x1x1 ![2] bcast_S1_S1x1x1_2 (constantI S1 32 511#32)))))
        (constantI S_ 1 1#1) reducesTo_S32x1024x1_S32x1024_d2 h_S_))
    (Host.gather gather_S32x512x768_S32x1024x1_S32x1024x768_2_1_0_0_1_2_11768 x
      (select (cmpi .slt idx (broadcastInDim S32x1024x1 ![] bcast_S_S32x1024x1 (constantI S_ 32 0#32)))
        (addi idx (broadcastInDim S32x1024x1 ![] bcast_S_S32x1024x1 (constantI S_ 32 512#32))) idx))
    (broadcastInDim S32x1024x768 ![] bcast_S_S32x1024x768 (constant (F := Ideal) S_ .f32 0x7FC00000#32))

/-- The program's first take is that function of the hidden states and the start-index array. -/
theorem starts_take (x0 : FVec Ideal S32x512x768 .f32) (x5 : IVec S32x1024x2 32) :
    val_main_v5 (F := Ideal) x0 x5 = takeRows x0 (val_main_v4 (F := Ideal) x5) := rfl

/-- The program's second take is the same function of the hidden states and the end-index array. -/
theorem ends_take (x0 : FVec Ideal S32x512x768 .f32) (x5 : IVec S32x1024x2 32) :
    val_main_v7 (F := Ideal) x0 x5 = takeRows x0 (val_main_v6 (F := Ideal) x5) := rfl

/-- A scalar word laid over the index array reads as that word everywhere. -/
theorem scalarWord_apply (v : BitVec 32) (i : S32x1024x1.Idx) :
    broadcastInDim S32x1024x1 ![] bcast_S_S32x1024x1 (constantI S_ 32 v) i = v :=
  broadcastInDim_apply _ _ _ i (fun a => a.elim0) (fun a => a.elim0)

/-- The largest row number, laid over the index array. -/
theorem lastRow_apply (i : S32x1024x1.Idx) :
    broadcastInDim S32x1024x1 ![0, 1, 2] bcast_S1x1x1_S32x1024x1_0_1_2
      (broadcastInDim S1x1x1 ![2] bcast_S1_S1x1x1_2 (constantI S1 32 511#32)) i = 511#32 := by
  rw [broadcastInDim_apply _ _ _ i (ix3 (0 : Fin 1) (0 : Fin 1) (0 : Fin 1)) (fun a => by
    match a with
    | ⟨0, _⟩ => rfl
    | ⟨1, _⟩ => rfl
    | ⟨2, _⟩ => rfl)]
  exact broadcastInDim_apply _ _ _ _ (ix1 (0 : Fin 1)) (fun a => by
    match a with
    | ⟨0, _⟩ => rfl)

/-- The index after the negative-index adjustment. -/
abbrev adjusted (idx : IVec S32x1024x1 32) : IVec S32x1024x1 32 :=
  select (cmpi .slt idx (broadcastInDim S32x1024x1 ![] bcast_S_S32x1024x1 (constantI S_ 32 0#32)))
    (addi idx (broadcastInDim S32x1024x1 ![] bcast_S_S32x1024x1 (constantI S_ 32 512#32))) idx

/-- A nonnegative index word is left alone by the adjustment. -/
theorem adjusted_apply (idx : IVec S32x1024x1 32) (i : S32x1024x1.Idx) (h0 : 0 ≤ (idx i).toInt) : adjusted idx i = idx i := by
  show Scalar.select (IntOp.cmpi .slt (idx i) (broadcastInDim S32x1024x1 ![] bcast_S_S32x1024x1 (constantI S_ 32 0#32) i))
    (IntOp.addi (idx i) (broadcastInDim S32x1024x1 ![] bcast_S_S32x1024x1 (constantI S_ 32 512#32) i)) (idx i) = idx i
  rw [scalarWord_apply]
  have hz : IntOp.cmpi .slt (idx i) 0#32 = 0#1 := by
    rcases BitVec.eq_zero_or_eq_one (IntOp.cmpi .slt (idx i) 0#32) with h | h
    · exact h
    · have hlt := IntOp.cmpi_slt.1 h
      have z : (0#32 : BitVec 32).toInt = 0 := by decide
      omega
  rw [hz]
  exact if_neg (by decide)

/-- The range test passes at an index word in [0, 512). -/
theorem inRange_apply (idx : IVec S32x1024x1 32) (b : Fin 32) (n : Fin 1024) (h : Fin 768)
    (h0 : 0 ≤ (idx (ix3 b n (0 : Fin 1))).toInt) (h1 : (idx (ix3 b n (0 : Fin 1))).toInt < 512) :
    broadcastInDim S32x1024x768 ![0, 1] bcast_S32x1024_S32x1024x768_0_1
      (Host.reduce IntOp.andi
        (andi (cmpi .sge (adjusted idx) (broadcastInDim S32x1024x1 ![] bcast_S_S32x1024x1 (constantI S_ 32 0#32)))
          (cmpi .sle (adjusted idx) (broadcastInDim S32x1024x1 ![0, 1, 2] bcast_S1x1x1_S32x1024x1_0_1_2
            (broadcastInDim S1x1x1 ![2] bcast_S1_S1x1x1_2 (constantI S1 32 511#32)))))
        (constantI S_ 1 1#1) reducesTo_S32x1024x1_S32x1024_d2 h_S_) (ix3 b n h) = 1#1 := by
  rw [broadcastInDim_apply _ _ _ (ix3 b n h) (ix2 b n) (fun a => by
    match a with
    | ⟨0, _⟩ => rfl
    | ⟨1, _⟩ => rfl)]
  rw [LibGatherRows3.reduce_andi_unit3_apply _ _ rfl]
  show IntOp.andi (IntOp.cmpi .sge (adjusted idx (ix3 b n (0 : Fin 1))) (broadcastInDim S32x1024x1 ![] bcast_S_S32x1024x1 (constantI S_ 32 0#32) (ix3 b n (0 : Fin 1))))
    (IntOp.cmpi .sle (adjusted idx (ix3 b n (0 : Fin 1))) (broadcastInDim S32x1024x1 ![0, 1, 2] bcast_S1x1x1_S32x1024x1_0_1_2
      (broadcastInDim S1x1x1 ![2] bcast_S1_S1x1x1_2 (constantI S1 32 511#32)) (ix3 b n (0 : Fin 1)))) = 1#1
  rw [adjusted_apply idx _ h0, scalarWord_apply, lastRow_apply]
  have z : (0#32 : BitVec 32).toInt = 0 := by decide
  have c : (511#32 : BitVec 32).toInt = 511 := by decide
  exact IntOp.andi_eq_one.2 ⟨IntOp.cmpi_sge.2 (by rw [z]; exact h0), IntOp.cmpi_sle.2 (by rw [c]; omega)⟩

/-- THE TAKE READ AT (b, n, h), at an index word in [0, 512): the operand's row the word names. -/
theorem takeRows_apply (x : FVec Ideal S32x512x768 .f32) (idx : IVec S32x1024x1 32) (b : Fin 32) (n : Fin 1024) (h : Fin 768)
    (h0 : 0 ≤ (idx (ix3 b n (0 : Fin 1))).toInt) (h1 : (idx (ix3 b n (0 : Fin 1))).toInt < 512) :
    takeRows x idx (ix3 b n h) = x (ix3 b (SpanLogit.row (idx (ix3 b n (0 : Fin 1)))) h) := by
  unfold takeRows
  rw [select_apply]
  rw [show (broadcastInDim S32x1024x768 ![0, 1] bcast_S32x1024_S32x1024x768_0_1
      (Host.reduce IntOp.andi
        (andi (cmpi .sge (adjusted idx) (broadcastInDim S32x1024x1 ![] bcast_S_S32x1024x1 (constantI S_ 32 0#32)))
          (cmpi .sle (adjusted idx) (broadcastInDim S32x1024x1 ![0, 1, 2] bcast_S1x1x1_S32x1024x1_0_1_2
            (broadcastInDim S1x1x1 ![2] bcast_S1_S1x1x1_2 (constantI S1 32 511#32)))))
        (constantI S_ 1 1#1) reducesTo_S32x1024x1_S32x1024_d2 h_S_) (ix3 b n h)) = 1#1 from inRange_apply idx b n h h0 h1]
  rw [select_one]
  refine (LibGatherRows3.gather_rows3_apply (by decide) gather_S32x512x768_S32x1024x1_S32x1024x768_2_1_0_0_1_2_11768_wf x (adjusted idx) b n h).trans ?_
  exact congrArg x (funext fun a => by
    match a with
    | ⟨0, _⟩ => rfl
    | ⟨1, _⟩ => exact Fin.ext (by
        show min (adjusted idx (ix3 b n (0 : Fin 1))).toInt.toNat (512 - 1) = min (idx (ix3 b n (0 : Fin 1))).toInt.toNat 511
        rw [adjusted_apply idx _ h0])
    | ⟨2, _⟩ => rfl)

/-! ## The index arrays -/

/-- Entry (b, n, 0) of the start-index array is the index input's (b, n, 0). -/
theorem startWord_apply (x5 : IVec S32x1024x2 32) (b : Fin 32) (n : Fin 1024) :
    val_main_v4 (F := Ideal) x5 (ix3 b n (0 : Fin 1)) = x5 (ix3 b n (0 : Fin 2)) := by
  rw [val_main_v4_apply, val_main_v1_apply, val_main_v0_apply]
  have hn := n.isLt
  exact congrArg x5 (funext fun a => Fin.ext (by
    match a with
    | ⟨0, _⟩ => show (b.val * 1024 + n.val) / 1024 = b.val; omega
    | ⟨1, _⟩ => show (b.val * 1024 + n.val) / 1 % 1024 = n.val; omega
    | ⟨2, _⟩ => rfl))

/-- Entry (b, n, 0) of the end-index array is the index input's (b, n, 1). -/
theorem endWord_apply (x5 : IVec S32x1024x2 32) (b : Fin 32) (n : Fin 1024) :
    val_main_v6 (F := Ideal) x5 (ix3 b n (0 : Fin 1)) = x5 (ix3 b n (1 : Fin 2)) := by
  rw [val_main_v6_apply, val_main_v3_apply, val_main_v2_apply]
  have hn := n.isLt
  exact congrArg x5 (funext fun a => Fin.ext (by
    match a with
    | ⟨0, _⟩ => show (b.val * 1024 + n.val) / 1024 = b.val; omega
    | ⟨1, _⟩ => show (b.val * 1024 + n.val) / 1 % 1024 = n.val; omega
    | ⟨2, _⟩ => rfl))

/-! ## The joined rows and the classifier -/

/-- The joined taken rows are the specification's span representation, when every index word lies in [0, 512). -/
theorem joined_apply (x0 : FVec Ideal S32x512x768 .f32) (x5 : IVec S32x1024x2 32)
    (hr : ∀ i, 0 ≤ (x5 i).toInt ∧ (x5 i).toInt < 512) (b : Fin 32) (n : Fin 1024) (d : Fin 1536) :
    val_main_v8 (F := Ideal) x0 x5 (ix3 b n d) = SpanLogit.rep x0 x5 b n d := by
  unfold val_main_v8 SpanLogit.rep
  split
  · next hd =>
    refine (concatenate_pair_apply_left (2 : Fin S32x1024x1536.rank) (val_main_v5 (F := Ideal) x0 x5) (val_main_v7 (F := Ideal) x0 x5)
      concatenates_S32x1024x768_S32x1024x768_S32x1024x1536_d2 (ix3 b n d) rfl (ix3 b n (⟨d.val, hd⟩ : Fin 768)) (fun a => by
      match a with
      | ⟨0, _⟩ => rfl
      | ⟨1, _⟩ => rfl
      | ⟨2, _⟩ => rfl)).trans ?_
    rw [starts_take, takeRows_apply x0 _ b n ⟨d.val, hd⟩ (by rw [startWord_apply]; exact (hr _).1) (by rw [startWord_apply]; exact (hr _).2),
      startWord_apply]
  · next hd =>
    refine (concatenate_pair_apply_right (2 : Fin S32x1024x1536.rank) (val_main_v5 (F := Ideal) x0 x5) (val_main_v7 (F := Ideal) x0 x5)
      concatenates_S32x1024x768_S32x1024x768_S32x1024x1536_d2 (ix3 b n d) rfl rfl
      (ix3 b n (⟨d.val - 768, by have := d.isLt; omega⟩ : Fin 768)) (fun a ha => by
      match a with
      | ⟨0, _⟩ => rfl
      | ⟨1, _⟩ => rfl
      | ⟨2, _⟩ => exact absurd rfl ha) (by
        show d.val - 768 + 768 = d.val
        omega)).trans ?_
    rw [ends_take, takeRows_apply x0 _ b n ⟨d.val - 768, by have := d.isLt; omega⟩ (by rw [endWord_apply]; exact (hr _).1)
      (by rw [endWord_apply]; exact (hr _).2), endWord_apply]

/-- THE REFERENCE'S RESULT is the specification's logits, when every index word lies in [0, 512). -/
theorem result_eq (x0 : FVec Ideal S32x512x768 .f32) (x1 : FVec Ideal S1536x768 .f32) (x2 : FVec Ideal S768 .f32)
    (x3 : FVec Ideal S768x1 .f32) (x4 : FVec Ideal S1 .f32) (x5 : IVec S32x1024x2 32)
    (hr : ∀ i, 0 ≤ (x5 i).toInt ∧ (x5 i).toInt < 512) :
    val_main_v18 (F := Ideal) x0 x1 x2 x3 x4 x5 = SpanLogit.G x0 x1 x2 x3 x4 x5 := by
  funext i
  obtain ⟨b, n, rfl⟩ : ∃ (b : Fin 32) (n : Fin 1024), i = ix2 b n := ⟨i 0, i 1, eq_ix2 i⟩
  have hn := n.isLt
  have e18 : idx_main_v18 (ix2 b n) = ix3 b n (0 : Fin 1) := funext fun a => Fin.ext (by
    match a with
    | ⟨0, _⟩ => show (b.val * 1024 + n.val) / 1024 = b.val; omega
    | ⟨1, _⟩ => show (b.val * 1024 + n.val) / 1 % 1024 = n.val; omega
    | ⟨2, _⟩ => rfl)
  rw [val_main_v18_apply, e18, val_main_v17_apply, val_main_v14_apply, val_main_v16_apply, val_main_v15_apply]
  show (∑ k : Fin 768, val_main_v13 (F := Ideal) x0 x1 x2 x5 (lidx_main_v14 (ix3 b n (0 : Fin 1)) k) * x3 (ridx_main_v14 (ix3 b n (0 : Fin 1)) k))
      + x4 (idx_main_v15 (idx_main_v16 (ix3 b n (0 : Fin 1)))) = SpanLogit.logit x0 x1 x2 x3 x4 x5 b n
  unfold SpanLogit.logit
  refine congrArg₂ (· + ·) (Finset.sum_congr rfl fun k _ => ?_) (congrArg x4 (funext fun a => by
    match a with
    | ⟨0, _⟩ => rfl))
  have el : lidx_main_v14 (ix3 b n (0 : Fin 1)) k = ix3 b n k := funext fun a => by
    match a with
    | ⟨0, _⟩ => rfl
    | ⟨1, _⟩ => rfl
    | ⟨2, _⟩ => rfl
  have er : ridx_main_v14 (ix3 b n (0 : Fin 1)) k = ix2 k (0 : Fin 1) := funext fun a => by
    match a with
    | ⟨0, _⟩ => rfl
    | ⟨1, _⟩ => rfl
  rw [el, er, val_main_v13_apply, val_main_v12_apply, val_main_call2_v0_apply, val_main_call2_cst_apply, val_main_v11_apply,
    val_main_v10_apply, val_main_v9_apply]
  show max ((∑ d : Fin 1536, val_main_v8 (F := Ideal) x0 x5 (lidx_main_v9 (ix3 b n k) d) * x1 (ridx_main_v9 (ix3 b n k) d))
      + x2 (idx_main_v10 (idx_main_v11 (ix3 b n k)))) (Ideal.ofBits .f32 0x00000000#32) * x3 (ix2 k (0 : Fin 1)) = _
  rw [Ideal.ofBits_zero_f32]
  refine congrArg (fun s => max s 0 * x3 (ix2 k (0 : Fin 1))) (congrArg₂ (· + ·) (Finset.sum_congr rfl fun d _ => ?_) (congrArg x2 (funext fun a => by
    match a with
    | ⟨0, _⟩ => rfl)))
  have el9 : lidx_main_v9 (ix3 b n k) d = ix3 b n d := funext fun a => by
    match a with
    | ⟨0, _⟩ => rfl
    | ⟨1, _⟩ => rfl
    | ⟨2, _⟩ => rfl
  have er9 : ridx_main_v9 (ix3 b n k) d = ix2 d k := funext fun a => by
    match a with
    | ⟨0, _⟩ => rfl
    | ⟨1, _⟩ => rfl
  rw [el9, er9, joined_apply x0 x5 hr b n d]

end Cert.RefValue

end
-- ==== Proof.lean ====
/-
  The certificate of a span classifier: a fused kernel against its plain reference, over the extended reals.

  For each batch b and span n the input gives two index words, a start and an end token position. Both programs take the
  two rows of the batch's hidden states at those positions, join them into a vector of 1536 entries, apply a first
  affine map to 768 hidden units, rectify, and project to one logit with a second weight column and bias. The reference
  takes the rows with a take along the sequence axis; the kernel multiplies an indicator matrix (1 where the column number
  equals the index word, 0 elsewhere) with the hidden states, one batch per grid point, and computes the projection as an
  entrywise product summed over the hidden units.

  The statement's precondition says every float input is finite and every index word lies in [0, 512). Only the second
  part is used. On such a word the indicator row has exactly one 1, at the word's own column, so the product picks that
  row (a zero weight annihilates whatever it multiplies, the infinities included); and the reference's take neither
  adjusts the word nor fills the row. From there on the two programs compute the same sums of the same terms: the
  specification `SpanLogit.G` names that function, `KernelValue.run` shows the kernel's program ends with it in its
  result, `RefValue.result_eq` that the reference's result is it, and the claims below put the two runs side by side.
  The kernel's idealization rewrote nothing, so the preservation conjunct is trivial.
-/
import proofs.«409077_j42752104465048_3_alg».proof.Defs
import proofs.«409077_j42752104465048_3_alg».proof.Proof.Gen.Kernel
import proofs.«409077_j42752104465048_3_alg».proof.Proof.Gen.Kernel.Skeleton
import proofs.«409077_j42752104465048_3_alg».proof.Proof.Gen.Kernel.Launch
import proofs.«409077_j42752104465048_3_alg».proof.Proof.Gen.Kernel.Points
import proofs.«409077_j42752104465048_3_alg».proof.Proof.Gen.Kernel.Frame
import proofs.«409077_j42752104465048_3_alg».proof.Proof.Gen.KernelIdeal
import proofs.«409077_j42752104465048_3_alg».proof.Proof.Gen.KernelIdeal.Skeleton
import proofs.«409077_j42752104465048_3_alg».proof.Proof.Gen.KernelIdeal.Launch
import proofs.«409077_j42752104465048_3_alg».proof.Proof.Gen.KernelIdeal.Points
import proofs.«409077_j42752104465048_3_alg».proof.Proof.Gen.KernelIdeal.Frame
import proofs.«409077_j42752104465048_3_alg».proof.Proof.Gen.ReferenceIdeal
import proofs.«409077_j42752104465048_3_alg».proof.Proof.Gen.Pre_finite_inputs
import proofs.«409077_j42752104465048_3_alg».proof.Proof.RefRun
import proofs.«409077_j42752104465048_3_alg».proof.Proof.RefRead
import proofs.«409077_j42752104465048_3_alg».proof.Proof.SpanLogit
import proofs.«409077_j42752104465048_3_alg».proof.Proof.IndexRange
import proofs.«409077_j42752104465048_3_alg».proof.Proof.KernelValue
import proofs.«409077_j42752104465048_3_alg».proof.Proof.RefValue
import Idealize.ShloMosaic.Adequacy
import Idealize.ShloMosaic.Init

noncomputable section

namespace Cert.Proof

open Idealize.ShloMosaic Idealize.SL.Sem

/-- The kernel's program runs and keeps its arguments, at the word level. -/
theorem frame_kernel : Cert.frame_Kernel := fun m ρ _ => Cert.Kernel.Gen.frame m ρ

/-- The same for its idealization. -/
theorem frame_kernelIdeal : Cert.frame_KernelIdeal := fun m ρ _ => Cert.KernelIdeal.Gen.frame m ρ

/-- The reference's program runs and keeps its arguments: its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- Both idealized programs, from memories agreeing on the arguments, end with the specification's logits. -/
theorem algebraic : Cert.algebraic_KernelIdeal_ReferenceIdeal := by
  intro m ρ m' ρ' hpre hagree
  have hr : ∀ (c : Dev Cert.KernelIdeal.nD) i, 0 ≤ ((m ((c.tc : Thread Cert.KernelIdeal.nD Cert.KernelIdeal.τ).loc Cert.KernelIdeal.main_arg5)) i).toInt ∧ ((m ((c.tc : Thread Cert.KernelIdeal.nD Cert.KernelIdeal.τ).loc Cert.KernelIdeal.main_arg5)) i).toInt < 512 :=
    fun c => Cert.IndexRange.range_of_pre _ _ _ _ _ _ (hpre c)
  refine ⟨fun c => Cert.SpanLogit.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    Cert.KernelValue.run m ρ hr, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v18_eq, (hagree c).1, (hagree c).2.1, (hagree c).2.2.1, (hagree c).2.2.2.1,
    (hagree c).2.2.2.2.1, (hagree c).2.2.2.2.2]
  exact Cert.RefValue.result_eq _ _ _ _ _ _ (hr c)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
